-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x20000 : Shape := ⟨2, ![2048, 20000]⟩
abbrev S2048x500 : Shape := ⟨2, ![2048, 500]⟩
abbrev S256x20000 : Shape := ⟨2, ![256, 20000]⟩
abbrev S256x500 : Shape := ⟨2, ![256, 500]⟩
abbrev S_ : Shape := ⟨0, ![]⟩

class Facts : Prop where
  bcast_S_S2048x20000 : S_.BroadcastsInDim S2048x20000 (![] : Fin 0 → Fin S2048x20000.rank)
  reducesTo_S2048x20000_S_d0_1 : S2048x20000.ReducesTo [0, 1] S_
  h_S_ : 0 < S_.numel
  bcast_S_S2048x500 : S_.BroadcastsInDim S2048x500 (![] : Fin 0 → Fin S2048x500.rank)
  reducesTo_S2048x500_S_d0_1 : S2048x500.ReducesTo [0, 1] S_
  bcast_S_S256x20000 : S_.BroadcastsInDim S256x20000 (![] : Fin 0 → Fin S256x20000.rank)
  reducesTo_S256x20000_S_d0_1 : S256x20000.ReducesTo [0, 1] S_
  bcast_S_S256x500 : S_.BroadcastsInDim S256x500 (![] : Fin 0 → Fin S256x500.rank)
  reducesTo_S256x500_S_d0_1 : S256x500.ReducesTo [0, 1] S_

variable [Facts]

def fn_part3 {F : FTy → Type} [FloatOps F] (main_v48 : IVec S_ 1) (main_v49 : FVec F S256x500 .f32) (main_v50 : FVec F S256x500 .f32) : IVec S_ 1 :=
  let main_v51 : IVec S256x500 1 := cmpf .olt main_v49 main_v50
  let main_c_19 : IVec S_ 1 := constantI S_ 1 1#1
  let main_v52 : IVec S_ 1 := (fun x v => Host.reduce IntOp.andi x v reducesTo_S256x500_S_d0_1 h_S_) main_v51 main_c_19
  let main_v53 : IVec S_ 1 := andi main_v48 main_v52
  main_v53

def fn_part2 {F : FTy → Type} [FloatOps F] (main_arg7 : FVec F S256x500 .f32) (main_arg8 : FVec F S256x500 .f32) (main_arg9 : FVec F S256x500 .f32) (main_arg10 : FVec F S256x500 .f32) (main_v33 : IVec S_ 1) : IVec S_ 1 :=
  let main_v34 : FVec F S256x500 .f32 := Host.absf main_arg7
  let main_cst_12 : FVec F S_ .f32 := constant S_ .f32 0x7F800000#32
  let main_v35 : FVec F S256x500 .f32 := broadcastInDim S256x500 ![] bcast_S_S256x500 main_cst_12
  let main_v36 : IVec S256x500 1 := cmpf .olt main_v34 main_v35
  let main_c_13 : IVec S_ 1 := constantI S_ 1 1#1
  let main_v37 : IVec S_ 1 := (fun x v => Host.reduce IntOp.andi x v reducesTo_S256x500_S_d0_1 h_S_) main_v36 main_c_13
  let main_v38 : IVec S_ 1 := andi main_v33 main_v37
  let main_v39 : FVec F S256x500 .f32 := Host.absf main_arg8
  let main_cst_14 : FVec F S_ .f32 := constant S_ .f32 0x7F800000#32
  let main_v40 : FVec F S256x500 .f32 := broadcastInDim S256x500 ![] bcast_S_S256x500 main_cst_14
  let main_v41 : IVec S256x500 1 := cmpf .olt main_v39 main_v40
  let main_c_15 : IVec S_ 1 := constantI S_ 1 1#1
  let main_v42 : IVec S_ 1 := (fun x v => Host.reduce IntOp.andi x v reducesTo_S256x500_S_d0_1 h_S_) main_v41 main_c_15
  let main_v43 : IVec S_ 1 := andi main_v38 main_v42
  let main_v44 : FVec F S256x500 .f32 := Host.absf main_arg9
  let main_cst_16 : FVec F S_ .f32 := constant S_ .f32 0x7F800000#32
  let main_v45 : FVec F S256x500 .f32 := broadcastInDim S256x500 ![] bcast_S_S256x500 main_cst_16
  let main_v46 : IVec S256x500 1 := cmpf .olt main_v44 main_v45
  let main_c_17 : IVec S_ 1 := constantI S_ 1 1#1
  let main_v47 : IVec S_ 1 := (fun x v => Host.reduce IntOp.andi x v reducesTo_S256x500_S_d0_1 h_S_) main_v46 main_c_17
  let main_v48 : IVec S_ 1 := andi main_v43 main_v47
  let main_v49 : FVec F S256x500 .f32 := Host.absf main_arg10
  let main_cst_18 : FVec F S_ .f32 := constant S_ .f32 0x7F800000#32
  let main_v50 : FVec F S256x500 .f32 := broadcastInDim S256x500 ![] bcast_S_S256x500 main_cst_18
  fn_part3 (F := F) main_v48 main_v49 main_v50

def fn_part1 {F : FTy → Type} [FloatOps F] (main_arg4 : FVec F S256x20000 .f32) (main_arg5 : FVec F S256x20000 .f32) (main_arg6 : FVec F S256x20000 .f32) (main_arg7 : FVec F S256x500 .f32) (main_arg8 : FVec F S256x500 .f32) (main_arg9 : FVec F S256x500 .f32) (main_arg10 : FVec F S256x500 .f32) (main_v13 : IVec S_ 1) (main_v16 : IVec S256x20000 1) : IVec S_ 1 :=
  let main_c_5 : IVec S_ 1 := constantI S_ 1 1#1
  let main_v17 : IVec S_ 1 := (fun x v => Host.reduce IntOp.andi x v reducesTo_S256x20000_S_d0_1 h_S_) main_v16 main_c_5
  let main_v18 : IVec S_ 1 := andi main_v13 main_v17
  let main_v19 : FVec F S256x20000 .f32 := Host.absf main_arg4
  let main_cst_6 : FVec F S_ .f32 := constant S_ .f32 0x7F800000#32
  let main_v20 : FVec F S256x20000 .f32 := broadcastInDim S256x20000 ![] bcast_S_S256x20000 main_cst_6
  let main_v21 : IVec S256x20000 1 := cmpf .olt main_v19 main_v20
  let main_c_7 : IVec S_ 1 := constantI S_ 1 1#1
  let main_v22 : IVec S_ 1 := (fun x v => Host.reduce IntOp.andi x v reducesTo_S256x20000_S_d0_1 h_S_) main_v21 main_c_7
  let main_v23 : IVec S_ 1 := andi main_v18 main_v22
  let main_v24 : FVec F S256x20000 .f32 := Host.absf main_arg5
  let main_cst_8 : FVec F S_ .f32 := constant S_ .f32 0x7F800000#32
  let main_v25 : FVec F S256x20000 .f32 := broadcastInDim S256x20000 ![] bcast_S_S256x20000 main_cst_8
  let main_v26 : IVec S256x20000 1 := cmpf .olt main_v24 main_v25
  let main_c_9 : IVec S_ 1 := constantI S_ 1 1#1
  let main_v27 : IVec S_ 1 := (fun x v => Host.reduce IntOp.andi x v reducesTo_S256x20000_S_d0_1 h_S_) main_v26 main_c_9
  let main_v28 : IVec S_ 1 := andi main_v23 main_v27
  let main_v29 : FVec F S256x20000 .f32 := Host.absf main_arg6
  let main_cst_10 : FVec F S_ .f32 := constant S_ .f32 0x7F800000#32
  let main_v30 : FVec F S256x20000 .f32 := broadcastInDim S256x20000 ![] bcast_S_S256x20000 main_cst_10
  let main_v31 : IVec S256x20000 1 := cmpf .olt main_v29 main_v30
  let main_c_11 : IVec S_ 1 := constantI S_ 1 1#1
  let main_v32 : IVec S_ 1 := (fun x v => Host.reduce IntOp.andi x v reducesTo_S256x20000_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x20000 .f32) (main_arg1 : FVec F S2048x20000 .f32) (main_arg2 : FVec F S2048x500 .f32) (main_arg3 : FVec F S256x20000 .f32) (main_arg4 : FVec F S256x20000 .f32) (main_arg5 : FVec F S256x20000 .f32) (main_arg6 : FVec F S256x20000 .f32) (main_arg7 : FVec F S256x500 .f32) (main_arg8 : FVec F S256x500 .f32) (main_arg9 : FVec F S256x500 .f32) (main_arg10 : FVec F S256x500 .f32) : IVec S_ 1 :=
  let main_v0 : FVec F S2048x20000 .f32 := Host.absf main_arg0
  let main_cst : FVec F S_ .f32 := constant S_ .f32 0x7F800000#32
  let main_v1 : FVec F S2048x20000 .f32 := broadcastInDim S2048x20000 ![] bcast_S_S2048x20000 main_cst
  let main_v2 : IVec S2048x20000 1 := cmpf .olt main_v0 main_v1
  let main_c : IVec S_ 1 := constantI S_ 1 1#1
  let main_v3 : IVec S_ 1 := (fun x v => Host.reduce IntOp.andi x v reducesTo_S2048x20000_S_d0_1 h_S_) main_v2 main_c
  let main_v4 : FVec F S2048x20000 .f32 := Host.absf main_arg1
  let main_cst_0 : FVec F S_ .f32 := constant S_ .f32 0x7F800000#32
  let main_v5 : FVec F S2048x20000 .f32 := broadcastInDim S2048x20000 ![] bcast_S_S2048x20000 main_cst_0
  let main_v6 : IVec S2048x20000 1 := cmpf .olt main_v4 main_v5
  let main_c_1 : IVec S_ 1 := constantI S_ 1 1#1
  let main_v7 : IVec S_ 1 := (fun x v => Host.reduce IntOp.andi x v reducesTo_S2048x20000_S_d0_1 h_S_) main_v6 main_c_1
  let main_v8 : IVec S_ 1 := andi main_v3 main_v7
  let main_v9 : FVec F S2048x500 .f32 := Host.absf main_arg2
  let main_cst_2 : FVec F S_ .f32 := constant S_ .f32 0x7F800000#32
  let main_v10 : FVec F S2048x500 .f32 := broadcastInDim S2048x500 ![] bcast_S_S2048x500 main_cst_2
  let main_v11 : IVec S2048x500 1 := cmpf .olt main_v9 main_v10
  let main_c_3 : IVec S_ 1 := constantI S_ 1 1#1
  let main_v12 : IVec S_ 1 := (fun x v => Host.reduce IntOp.andi x v reducesTo_S2048x500_S_d0_1 h_S_) main_v11 main_c_3
  let main_v13 : IVec S_ 1 := andi main_v8 main_v12
  let main_v14 : FVec F S256x20000 .f32 := Host.absf main_arg3
  let main_cst_4 : FVec F S_ .f32 := constant S_ .f32 0x7F800000#32
  let main_v15 : FVec F S256x20000 .f32 := broadcastInDim S256x20000 ![] bcast_S_S256x20000 main_cst_4
  let main_v16 : IVec S256x20000 1 := cmpf .olt main_v14 main_v15
  fn_part1 (F := F) main_arg4 main_arg5 main_arg6 main_arg7 main_arg8 main_arg9 main_arg10 main_v13 main_v16
-- ==== Kernel.lean ====
abbrev S2048x20000 : Shape := ⟨2, ![2048, 20000]⟩
abbrev S2048x500 : Shape := ⟨2, ![2048, 500]⟩
abbrev S256x20000 : Shape := ⟨2, ![256, 20000]⟩
abbrev S256x500 : Shape := ⟨2, ![256, 500]⟩
abbrev S_ : Shape := ⟨0, ![]⟩
abbrev S2048x20480 : Shape := ⟨2, ![2048, 20480]⟩
abbrev S256x20480 : Shape := ⟨2, ![256, 20480]⟩
abbrev S20480x256 : Shape := ⟨2, ![20480, 256]⟩
abbrev S500x256 : Shape := ⟨2, ![500, 256]⟩
abbrev S2048x1 : Shape := ⟨2, ![2048, 1]⟩
abbrev S256x1280 : Shape := ⟨2, ![256, 1280]⟩
abbrev S1280x256 : Shape := ⟨2, ![1280, 256]⟩
abbrev S256x1 : Shape := ⟨2, ![256, 1]⟩
abbrev S256x256 : Shape := ⟨2, ![256, 256]⟩
abbrev S256 : Shape := ⟨1, ![256]⟩

abbrev nBuf : Space → Nat
  | .hbm => 38
  | .vmem => 32
  | .smem => 0
  | _ => 0

abbrev bufTy : (tb : Table) → Fin (tcTables nBuf tb) → BufTy
  | .hbm, ⟨0, _⟩ => ⟨S2048x20000, .f32⟩
  | .hbm, ⟨1, _⟩ => ⟨S2048x20000, .f32⟩
  | .hbm, ⟨2, _⟩ => ⟨S2048x500, .f32⟩
  | .hbm, ⟨3, _⟩ => ⟨S256x20000, .f32⟩
  | .hbm, ⟨4, _⟩ => ⟨S256x20000, .f32⟩
  | .hbm, ⟨5, _⟩ => ⟨S256x20000, .f32⟩
  | .hbm, ⟨6, _⟩ => ⟨S256x20000, .f32⟩
  | .hbm, ⟨7, _⟩ => ⟨S256x500, .f32⟩
  | .hbm, ⟨8, _⟩ => ⟨S256x500, .f32⟩
  | .hbm, ⟨9, _⟩ => ⟨S256x500, .f32⟩
  | .hbm, ⟨10, _⟩ => ⟨S256x500, .f32⟩
  | .hbm, ⟨11, _⟩ => ⟨S_, .i32⟩
  | .hbm, ⟨12, _⟩ => ⟨S_, .f32⟩
  | .hbm, ⟨13, _⟩ => ⟨S2048x20480, .f32⟩
  | .hbm, ⟨14, _⟩ => ⟨S_, .i32⟩
  | .hbm, ⟨15, _⟩ => ⟨S_, .f32⟩
  | .hbm, ⟨16, _⟩ => ⟨S2048x20480, .f32⟩
  | .hbm, ⟨17, _⟩ => ⟨S_, .i32⟩
  | .hbm, ⟨18, _⟩ => ⟨S_, .f32⟩
  | .hbm, ⟨19, _⟩ => ⟨S256x20480, .f32⟩
  | .hbm, ⟨20, _⟩ => ⟨S20480x256, .f32⟩
  | .hbm, ⟨21, _⟩ => ⟨S_, .i32⟩
  | .hbm, ⟨22, _⟩ => ⟨S_, .f32⟩
  | .hbm, ⟨23, _⟩ => ⟨S256x20480, .f32⟩
  | .hbm, ⟨24, _⟩ => ⟨S20480x256, .f32⟩
  | .hbm, ⟨25, _⟩ => ⟨S_, .i32⟩
  | .hbm, ⟨26, _⟩ => ⟨S_, .f32⟩
  | .hbm, ⟨27, _⟩ => ⟨S256x20480, .f32⟩
  | .hbm, ⟨28, _⟩ => ⟨S20480x256, .f32⟩
  | .hbm, ⟨29, _⟩ => ⟨S_, .i32⟩
  | .hbm, ⟨30, _⟩ => ⟨S_, .f32⟩
  | .hbm, ⟨31, _⟩ => ⟨S256x20480, .f32⟩
  | .hbm, ⟨32, _⟩ => ⟨S20480x256, .f32⟩
  | .hbm, ⟨33, _⟩ => ⟨S500x256, .f32⟩
  | .hbm, ⟨34, _⟩ => ⟨S500x256, .f32⟩
  | .hbm, ⟨35, _⟩ => ⟨S500x256, .f32⟩
  | .hbm, ⟨36, _⟩ => ⟨S500x256, .f32⟩
  | .hbm, ⟨37, _⟩ => ⟨S2048x1, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x500, .f32⟩
  | .local _ .vmem, ⟨5, _⟩ => ⟨S256x500, .f32⟩
  | .local _ .vmem, ⟨6, _⟩ => ⟨S1280x256, .f32⟩
  | .local _ .vmem, ⟨7, _⟩ => ⟨S1280x256, .f32⟩
  | .local _ .vmem, ⟨8, _⟩ => ⟨S1280x256, .f32⟩
  | .local _ .vmem, ⟨9, _⟩ => ⟨S1280x256, .f32⟩
  | .local _ .vmem, ⟨10, _⟩ => ⟨S1280x256, .f32⟩
  | .local _ .vmem, ⟨11, _⟩ => ⟨S1280x256, .f32⟩
  | .local _ .vmem, ⟨12, _⟩ => ⟨S1280x256, .f32⟩
  | .local _ .vmem, ⟨13, _⟩ => ⟨S1280x256, .f32⟩
  | .local _ .vmem, ⟨14, _⟩ => ⟨S500x256, .f32⟩
  | .local _ .vmem, ⟨15, _⟩ => ⟨S500x256, .f32⟩
  | .local _ .vmem, ⟨16, _⟩ => ⟨S500x256, .f32⟩
  | .local _ .vmem, ⟨17, _⟩ => ⟨S500x256, .f32⟩
  | .local _ .vmem, ⟨18, _⟩ => ⟨S256x1, .f32⟩
  | .local _ .vmem, ⟨19, _⟩ => ⟨S256x1, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | _, _ => ⟨S2048x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_c_1 : Ref sig .tc := ⟨.hbm, 17, rfl⟩
abbrev main_call2_v0 : Ref sig .tc := ⟨.hbm, 18, rfl⟩
abbrev main_v2 : Ref sig .tc := ⟨.hbm, 19, rfl⟩
abbrev main_v3 : Ref sig .tc := ⟨.hbm, 20, rfl⟩
abbrev main_c_2 : Ref sig .tc := ⟨.hbm, 21, rfl⟩
abbrev main_call3_v0 : Ref sig .tc := ⟨.hbm, 22, rfl⟩
abbrev main_v4 : Ref sig .tc := ⟨.hbm, 23, rfl⟩
abbrev main_v5 : Ref sig .tc := ⟨.hbm, 24, rfl⟩
abbrev main_c_3 : Ref sig .tc := ⟨.hbm, 25, rfl⟩
abbrev main_call4_v0 : Ref sig .tc := ⟨.hbm, 26, rfl⟩
abbrev main_v6 : Ref sig .tc := ⟨.hbm, 27, rfl⟩
abbrev main_v7 : Ref sig .tc := ⟨.hbm, 28, rfl⟩
abbrev main_c_4 : Ref sig .tc := ⟨.hbm, 29, rfl⟩
abbrev main_call5_v0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v69 : BitVec 1 := Scalar.cmpi .eq arg1 c15_i32
  let v70 : BitVec 32 := Scalar.extui v69
  let c0_i32_51 : BitVec 32 := 0#32
  let v71 : BitVec 1 := Scalar.cmpi .ne v70 c0_i32_51
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1280x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1280x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1280x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S500x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S500x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S500x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S500x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  pads_S2048x20000_S2048x20480_000_04800 : S2048x20000.Pads (![0, 0] : Fin 2 → Nat) ![0, 480] ![0, 0] S2048x20480
  h_S_ : 0 < S_.numel
  pads_S256x20000_S256x20480_000_04800 : S256x20000.Pads (![0, 0] : Fin 2 → Nat) ![0, 480] ![0, 0] S256x20480
  transposes_S256x20480_S20480x256_1_0 : S256x20480.Transposes [1, 0] S20480x256
  transposes_S256x500_S500x256_1_0 : S256x500.Transposes [1, 0] S500x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x500_S256x500_0_0 : ∀ a, (![0, 0] : Fin 2 → Nat) a + S256x500.size a ≤ S256x500.size a
  h_S256x500 : 0 < S256x500.numel
  bitsLt_bf16_f32 : FTy.bits .bf16 < FTy.bits .f32
  inb_S500x256_S500x256_0_0 : ∀ a, (![0, 0] : Fin 2 → Nat) a + S500x256.size a ≤ S500x256.size a
  h_S500x256 : 0 < S500x256.numel
  shapeCasts_S500x256_S500x256 : S500x256.ShapeCasts S500x256
  reduces_S256x256_S256 : S256x256.Reduces [1] S256
  shapeCasts_S256_S256x1 : S256.ShapeCasts S256x1
  broadcasts_S256x1_S256x256 : S256x1.Broadcasts S256x256
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  inb_S256x1_S256x1_0_0 : ∀ a, (![0, 0] : Fin 2 → Nat) a + S256x1.size a ≤ S256x1.size a
  h_S256x1 : 0 < S256x1.numel
  dot_S256x500_S500x256_S256x256_1_0_0_1_n_n_wf : DotDims.WF S256x500 S500x256 S256x256 [1] [0] [0] [1] [] []
  dot_S256x1280_S1280x256_S256x256_1_0_0_1_n_n_wf : DotDims.WF S256x1280 S1280x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1280.size a ≤ S2048x20480.size a
  hwx0_0 : ∀ i : grid0.Coords, EltTy.bits .f32 = 32 ∨ (Rect.block (s := S2048x20480) S256x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1280.size a ≤ S2048x20480.size a
  hwx0_1 : ∀ i : grid0.Coords, EltTy.bits .f32 = 32 ∨ (Rect.block (s := S2048x20480) S256x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x500.size a ≤ S2048x500.size a
  hwx0_2 : ∀ i : grid0.Coords, EltTy.bits .f32 = 32 ∨ (Rect.block (s := S2048x500) S256x500.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x256.size a ≤ S20480x256.size a
  hwx0_3 : ∀ i : grid0.Coords, EltTy.bits .f32 = 32 ∨ (Rect.block (s := S20480x256) S1280x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1280x256.size a ≤ S20480x256.size a
  hwx0_4 : ∀ i : grid0.Coords, EltTy.bits .f32 = 32 ∨ (Rect.block (s := S20480x256) S1280x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1280x256.size a ≤ S20480x256.size a
  hwx0_5 : ∀ i : grid0.Coords, EltTy.bits .f32 = 32 ∨ (Rect.block (s := S20480x256) S1280x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1280x256.size a ≤ S20480x256.size a
  hwx0_6 : ∀ i : grid0.Coords, EltTy.bits .f32 = 32 ∨ (Rect.block (s := S20480x256) S1280x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S500x256.size a ≤ S500x256.size a
  hwx0_7 : ∀ i : grid0.Coords, EltTy.bits .f32 = 32 ∨ (Rect.block (s := S500x256) S500x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S500x256.size a ≤ S500x256.size a
  hwx0_8 : ∀ i : grid0.Coords, EltTy.bits .f32 = 32 ∨ (Rect.block (s := S500x256) S500x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S500x256.size a ≤ S500x256.size a
  hwx0_9 : ∀ i : grid0.Coords, EltTy.bits .f32 = 32 ∨ (Rect.block (s := S500x256) S500x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S500x256.size a ≤ S500x256.size a
  hwx0_10 : ∀ i : grid0.Coords, EltTy.bits .f32 = 32 ∨ (Rect.block (s := S500x256) S500x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1.size a ≤ S2048x1.size a
  hwx0_11 : ∀ i : grid0.Coords, EltTy.bits .f32 = 32 ∨ (Rect.block (s := S2048x1) S256x1.size (cc0_transform_11 i) (hinb0_11 i)).WholeWords (EltTy.packing .f32)

variable [Facts₀]

def dot_S256x500_S500x256_S256x256_1_0_0_1_n_n : DotDims S256x500 S500x256 S256x256 where
  lhsContracting := [1]
  rhsContracting := [0]
  lhsNonContracting := [0]
  rhsNonContracting := [1]
  lhsBatch := []
  rhsBatch := []
  wf := dot_S256x500_S500x256_S256x256_1_0_0_1_n_n_wf
def dot_S256x1280_S1280x256_S256x256_1_0_0_1_n_n : DotDims S256x1280 S1280x256 S256x256 where
  lhsContracting := [1]
  rhsContracting := [0]
  lhsNonContracting := [0]
  rhsNonContracting := [1]
  lhsBatch := []
  rhsBatch := []
  wf := dot_S256x1280_S1280x256_S256x256_1_0_0_1_n_n_wf

abbrev win0_0 : Pipeline.Window sig grid0 :=
  Pipeline.Window.ofSpec (Memref.whole main_v0) S256x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x500.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1280x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1280x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1280x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1280x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10) S500x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S500x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S500x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S500x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S256x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S2048x20000 : Shape := ⟨2, ![2048, 20000]⟩
abbrev S2048x500 : Shape := ⟨2, ![2048, 500]⟩
abbrev S256x20000 : Shape := ⟨2, ![256, 20000]⟩
abbrev S256x500 : Shape := ⟨2, ![256, 500]⟩
abbrev S20000x256 : Shape := ⟨2, ![20000, 256]⟩
abbrev S2048x256 : Shape := ⟨2, ![2048, 256]⟩
abbrev S500x256 : Shape := ⟨2, ![500, 256]⟩
abbrev S_ : Shape := ⟨0, ![]⟩
abbrev S2048 : Shape := ⟨1, ![2048]⟩
abbrev S2048x1 : Shape := ⟨2, ![2048, 1]⟩

abbrev nBuf : Space → Nat
  | .hbm => 100
  | .vmem => 0
  | .smem => 0
  | _ => 0

abbrev bufTy : (tb : Table) → Fin (tcTables nBuf tb) → BufTy
  | .hbm, ⟨0, _⟩ => ⟨S2048x20000, .f32⟩
  | .hbm, ⟨1, _⟩ => ⟨S2048x20000, .f32⟩
  | .hbm, ⟨2, _⟩ => ⟨S2048x500, .f32⟩
  | .hbm, ⟨3, _⟩ => ⟨S256x20000, .f32⟩
  | .hbm, ⟨4, _⟩ => ⟨S256x20000, .f32⟩
  | .hbm, ⟨5, _⟩ => ⟨S256x20000, .f32⟩
  | .hbm, ⟨6, _⟩ => ⟨S256x20000, .f32⟩
  | .hbm, ⟨7, _⟩ => ⟨S256x500, .f32⟩
  | .hbm, ⟨8, _⟩ => ⟨S256x500, .f32⟩
  | .hbm, ⟨9, _⟩ => ⟨S256x500, .f32⟩
  | .hbm, ⟨10, _⟩ => ⟨S256x500, .f32⟩
  | .hbm, ⟨11, _⟩ => ⟨S20000x256, .f32⟩
  | .hbm, ⟨12, _⟩ => ⟨S2048x256, .f32⟩
  | .hbm, ⟨13, _⟩ => ⟨S20000x256, .f32⟩
  | .hbm, ⟨14, _⟩ => ⟨S2048x256, .f32⟩
  | .hbm, ⟨15, _⟩ => ⟨S20000x256, .f32⟩
  | .hbm, ⟨16, _⟩ => ⟨S2048x256, .f32⟩
  | .hbm, ⟨17, _⟩ => ⟨S20000x256, .f32⟩
  | .hbm, ⟨18, _⟩ => ⟨S2048x256, .f32⟩
  | .hbm, ⟨19, _⟩ => ⟨S20000x256, .f32⟩
  | .hbm, ⟨20, _⟩ => ⟨S2048x256, .f32⟩
  | .hbm, ⟨21, _⟩ => ⟨S20000x256, .f32⟩
  | .hbm, ⟨22, _⟩ => ⟨S2048x256, .f32⟩
  | .hbm, ⟨23, _⟩ => ⟨S20000x256, .f32⟩
  | .hbm, ⟨24, _⟩ => ⟨S2048x256, .f32⟩
  | .hbm, ⟨25, _⟩ => ⟨S20000x256, .f32⟩
  | .hbm, ⟨26, _⟩ => ⟨S2048x256, .f32⟩
  | .hbm, ⟨27, _⟩ => ⟨S500x256, .f32⟩
  | .hbm, ⟨28, _⟩ => ⟨S2048x256, .f32⟩
  | .hbm, ⟨29, _⟩ => ⟨S500x256, .f32⟩
  | .hbm, ⟨30, _⟩ => ⟨S2048x256, .f32⟩
  | .hbm, ⟨31, _⟩ => ⟨S500x256, .f32⟩
  | .hbm, ⟨32, _⟩ => ⟨S2048x256, .f32⟩
  | .hbm, ⟨33, _⟩ => ⟨S500x256, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x1, .f32⟩
  | .hbm, ⟨46, _⟩ => ⟨S2048x256, .f32⟩
  | .hbm, ⟨47, _⟩ => ⟨S2048x256, .f32⟩
  | .hbm, ⟨48, _⟩ => ⟨S2048x256, .f32⟩
  | .hbm, ⟨49, _⟩ => ⟨S2048x256, .f32⟩
  | .hbm, ⟨50, _⟩ => ⟨S2048x256, .f32⟩
  | .hbm, ⟨51, _⟩ => ⟨S2048x256, .f32⟩
  | .hbm, ⟨52, _⟩ => ⟨S2048x256, .f32⟩
  | .hbm, ⟨53, _⟩ => ⟨S2048x256, .f32⟩
  | .hbm, ⟨54, _⟩ => ⟨S2048x256, .f32⟩
  | .hbm, ⟨55, _⟩ => ⟨S2048x256, .f32⟩
  | .hbm, ⟨56, _⟩ => ⟨S2048x256, .f32⟩
  | .hbm, ⟨57, _⟩ => ⟨S2048x256, .f32⟩
  | .hbm, ⟨58, _⟩ => ⟨S2048x256, .f32⟩
  | .hbm, ⟨59, _⟩ => ⟨S2048x256, .f32⟩
  | .hbm, ⟨60, _⟩ => ⟨S2048x256, .f32⟩
  | .hbm, ⟨61, _⟩ => ⟨S2048x256, .f32⟩
  | .hbm, ⟨62, _⟩ => ⟨S2048x256, .f32⟩
  | .hbm, ⟨63, _⟩ => ⟨S2048x256, .f32⟩
  | .hbm, ⟨64, _⟩ => ⟨S2048x256, .f32⟩
  | .hbm, ⟨65, _⟩ => ⟨S2048x256, .f32⟩
  | .hbm, ⟨66, _⟩ => ⟨S2048x256, .f32⟩
  | .hbm, ⟨67, _⟩ => ⟨S2048x256, .f32⟩
  | .hbm, ⟨68, _⟩ => ⟨S2048x256, .f32⟩
  | .hbm, ⟨69, _⟩ => ⟨S2048x256, .f32⟩
  | .hbm, ⟨70, _⟩ => ⟨S2048x256, .f32⟩
  | .hbm, ⟨71, _⟩ => ⟨S2048x256, .f32⟩
  | .hbm, ⟨72, _⟩ => ⟨S2048x256, .f32⟩
  | .hbm, ⟨73, _⟩ => ⟨S2048x256, .f32⟩
  | .hbm, ⟨74, _⟩ => ⟨S2048x256, .f32⟩
  | .hbm, ⟨75, _⟩ => ⟨S2048x256, .f32⟩
  | .hbm, ⟨76, _⟩ => ⟨S2048x256, .f32⟩
  | .hbm, ⟨77, _⟩ => ⟨S2048x256, .f32⟩
  | .hbm, ⟨78, _⟩ => ⟨S2048x256, .f32⟩
  | .hbm, ⟨79, _⟩ => ⟨S2048x256, .f32⟩
  | .hbm, ⟨80, _⟩ => ⟨S2048x256, .f32⟩
  | .hbm, ⟨81, _⟩ => ⟨S2048x256, .f32⟩
  | .hbm, ⟨82, _⟩ => ⟨S2048x256, .f32⟩
  | .hbm, ⟨83, _⟩ => ⟨S2048x256, .f32⟩
  | .hbm, ⟨84, _⟩ => ⟨S2048x256, .f32⟩
  | .hbm, ⟨85, _⟩ => ⟨S2048x256, .f32⟩
  | .hbm, ⟨86, _⟩ => ⟨S2048x256, .f32⟩
  | .hbm, ⟨87, _⟩ => ⟨S2048x256, .f32⟩
  | .hbm, ⟨88, _⟩ => ⟨S2048x256, .f32⟩
  | .hbm, ⟨89, _⟩ => ⟨S_, .f32⟩
  | .hbm, ⟨90, _⟩ => ⟨S2048, .f32⟩
  | .hbm, ⟨91, _⟩ => ⟨S2048x1, .f32⟩
  | .hbm, ⟨92, _⟩ => ⟨S2048x1, .f32⟩
  | .hbm, ⟨93, _⟩ => ⟨S2048x1, .f32⟩
  | .hbm, ⟨94, _⟩ => ⟨S_, .f32⟩
  | .hbm, ⟨95, _⟩ => ⟨S2048x1, .f32⟩
  | .hbm, ⟨96, _⟩ => ⟨S2048x1, .f32⟩
  | .hbm, ⟨97, _⟩ => ⟨S_, .f32⟩
  | .hbm, ⟨98, _⟩ => ⟨S2048x1, .f32⟩
  | .hbm, ⟨99, _⟩ => ⟨S2048x1, .f32⟩
  | _, _ => ⟨S2048x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_cst_0 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_1 : Ref sig .tc := ⟨.hbm, 94, rfl⟩
abbrev main_v81 : Ref sig .tc := ⟨.hbm, 95, rfl⟩
abbrev main_v82 : Ref sig .tc := ⟨.hbm, 96, rfl⟩
abbrev main_cst_2 : Ref sig .tc := ⟨.hbm, 97, rfl⟩
abbrev main_v83 : Ref sig .tc := ⟨.hbm, 98, rfl⟩
abbrev main_v84 : Ref sig .tc := ⟨.hbm, 99, rfl⟩

abbrev nD : Nat := 1
abbrev τ : Topo := Topo.v7x

variable {F : FTy → Type} [FloatOps F]

class Facts₀ : Prop where
  transposes_S256x20000_S20000x256_1_0 : S256x20000.Transposes [1, 0] S20000x256
  transposes_S256x500_S500x256_1_0 : S256x500.Transposes [1, 0] S500x256
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  bcast_S_S2048x1 : S_.BroadcastsInDim S2048x1 (![] : Fin 0 → Fin S2048x1.rank)
  dot_S2048x20000_S20000x256_S2048x256_1_0_0_1_n_n_wf : DotDims.WF S2048x20000 S20000x256 S2048x256 [1] [0] [0] [1] [] []
  dot_S2048x500_S500x256_S2048x256_1_0_0_1_n_n_wf : DotDims.WF S2048x500 S500x256 S2048x256 [1] [0] [0] [1] [] []

variable [Facts₀]

def dot_S2048x20000_S20000x256_S2048x256_1_0_0_1_n_n : DotDims S2048x20000 S20000x256 S2048x256 where
  lhsContracting := [1]
  rhsContracting := [0]
  lhsNonContracting := [0]
  rhsNonContracting := [1]
  lhsBatch := []
  rhsBatch := []
  wf := dot_S2048x20000_S20000x256_S2048x256_1_0_0_1_n_n_wf
def dot_S2048x500_S500x256_S2048x256_1_0_0_1_n_n : DotDims S2048x500 S500x256 S2048x256 where
  lhsContracting := [1]
  rhsContracting := [0]
  lhsNonContracting := [0]
  rhsNonContracting := [1]
  lhsBatch := []
  rhsBatch := []
  wf := dot_S2048x500_S500x256_S2048x256_1_0_0_1_n_n_wf

class Facts : Prop extends Facts₀ where

variable [Facts]
-- ==== Proof.KernelPieces.lean ====
/-
  What each control case of the kernel body leaves in the twelve carried scratch buffers and in the output block,
  as pure terms of the blocks it loads and of what the scratch buffers held before.

  The body meets three cases along the entity axis.  At the first entity tile it clears the eight accumulators,
  writes the four scaled relation parts, and adds the tile's eight block products into the cleared accumulators.
  At a middle tile it adds the eight block products into what the accumulators held and leaves the relation parts
  as they were.  At the last tile it does the same and then, from the accumulators as just updated and the relation
  parts as kept, writes the output column.  Each buffer's final contents are its last covering store: for an
  accumulator at the first tile the clearing store lies under the adding store, and the load between them reads the
  cleared value.
-/
import proofs.«106782_j49649821942232_1_alg».proof.Proof.PatchedKernelIdealFrame
import Idealize.ShloMosaic.Lib.Pipeline.Value

set_option maxRecDepth 16384

noncomputable section

namespace Cert.KernelPieces

open Cert.KernelIdeal Cert.KernelIdeal.Gen Idealize.ShloMosaic Idealize.ShloMosaic.TcCoe Idealize.ShloMosaic.Tactic
open Idealize.SL Idealize.SL.Sem

variable {F : FTy → Type} [FloatOps F]

section Free

variable (c : Dev nD) (i : grid0.Coords) (arg2 : Memref sig .tc .vmem S256x1280 .f32) (harg2 : arg2.IsWhole) (arg3 : Memref sig .tc .vmem S256x1280 .f32) (harg3 : arg3.IsWhole) (arg4 : Memref sig .tc .vmem S256x500 .f32) (harg4 : arg4.IsWhole) (arg5 : Memref sig .tc .vmem S1280x256 .f32) (harg5 : arg5.IsWhole) (arg6 : Memref sig .tc .vmem S1280x256 .f32) (harg6 : arg6.IsWhole) (arg7 : Memref sig .tc .vmem S1280x256 .f32) (harg7 : arg7.IsWhole) (arg8 : Memref sig .tc .vmem S1280x256 .f32) (harg8 : arg8.IsWhole) (arg9 : Memref sig .tc .vmem S500x256 .f32) (harg9 : arg9.IsWhole) (arg10 : Memref sig .tc .vmem S500x256 .f32) (harg10 : arg10.IsWhole) (arg11 : Memref sig .tc .vmem S500x256 .f32) (harg11 : arg11.IsWhole) (arg12 : Memref sig .tc .vmem S500x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole)
variable (x0 x1 : Vec F S256x1280 .f32) (x2 : Vec F S256x500 .f32) (x3 x4 x5 x6 : Vec F S1280x256 .f32) (x7 x8 x9 x10 : Vec F S500x256 .f32) (xs0 xs1 xs2 xs3 xs4 xs5 xs6 xs7 xs8 xs9 xs10 xs11 : Vec F S256x256 .f32)

/-- Every store of the body starts at the origin of its buffer. -/
theorem hz : (![0, 0] : Fin 2 → Nat) = fun _ => 0 := funext fun a => by fin_cases a <;> rfl

/-! ## The first entity tile -/

theorem pieceA_0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 = k0_pay34 x0 x3 k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10)]
  unfold kernelRun0_A
  dsimp only
  sl_unfold_words
  rw [View.canon_cons_unit_zero (S := S256x256) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceA_1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 = k0_pay36 (k0_pay35 x0 x4 k0_pay5) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10)]
  unfold kernelRun0_A
  dsimp only
  sl_unfold_words
  rw [View.canon_cons_unit_zero (S := S256x256) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceA_2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 = k0_pay37 (k0_pay28 x0) (k0_pay32 x5) k0_pay6 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10)]
  unfold kernelRun0_A
  dsimp only
  sl_unfold_words
  rw [View.canon_cons_unit_zero (S := S256x256) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceA_3 (hc0 : cond0_0 i) (hc1 : ¬cond0_1 i) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 = k0_pay38 (k0_pay28 x0) (k0_pay33 x6) k0_pay7 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10)]
  unfold kernelRun0_A
  dsimp only
  sl_unfold_words
  rw [View.canon_cons_unit_zero (S := S256x256) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceA_4 (hc0 : cond0_0 i) (hc1 : ¬cond0_1 i) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 = k0_pay39 (k0_pay29 x1) (k0_pay30 x3) k0_pay8 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10)]
  unfold kernelRun0_A
  dsimp only
  sl_unfold_words
  rw [View.canon_cons_unit_zero (S := S256x256) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceA_5 (hc0 : cond0_0 i) (hc1 : ¬cond0_1 i) :
    sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 = k0_pay40 (k0_pay29 x1) (k0_pay31 x4) k0_pay9 := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10)]
  unfold kernelRun0_A
  dsimp only
  sl_unfold_words
  rw [View.canon_cons_unit_zero (S := S256x256) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceA_6 (hc0 : cond0_0 i) (hc1 : ¬cond0_1 i) :
    sout0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 = k0_pay1 (k0_pay41 (k0_pay29 x1) (k0_pay32 x5) k0_pay10) := by
  unfold sout0_A_6
  rw [View.read_writes_eq_canon _ _ _ (scover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10)]
  unfold kernelRun0_A
  dsimp only
  sl_unfold_words
  rw [View.canon_cons_unit_zero (S := S256x256) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceA_7 (hc0 : cond0_0 i) (hc1 : ¬cond0_1 i) :
    sout0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 = k0_pay2 (k0_pay29 x1) (k0_pay33 x6) (k0_pay12 k0_pay11) := by
  unfold sout0_A_7
  rw [View.read_writes_eq_canon _ _ _ (scover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10)]
  unfold kernelRun0_A
  dsimp only
  sl_unfold_words
  rw [View.canon_cons_unit_zero (S := S256x256) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceA_8 (hc0 : cond0_0 i) (hc1 : ¬cond0_1 i) :
    sout0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 = k0_pay19 x2 x7 x8 x9 x10 := by
  unfold sout0_A_8
  rw [View.read_writes_eq_canon _ _ _ (scover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceA_9 (hc0 : cond0_0 i) (hc1 : ¬cond0_1 i) :
    sout0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 = k0_pay25 (k0_pay20 x2 x7 x8 x9 x10) := by
  unfold sout0_A_9
  rw [View.read_writes_eq_canon _ _ _ (scover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceA_10 (hc0 : cond0_0 i) (hc1 : ¬cond0_1 i) :
    sout0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 = k0_pay26 (k0_pay16 x2 x9) (k0_pay18 x2 x7 x8 x9 x10) := by
  unfold sout0_A_10
  rw [View.read_writes_eq_canon _ _ _ (scover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceA_11 (hc0 : cond0_0 i) (hc1 : ¬cond0_1 i) :
    sout0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 = k0_pay27 (k0_pay17 x2 x10) (k0_pay18 x2 x7 x8 x9 x10) := by
  unfold sout0_A_11
  rw [View.read_writes_eq_canon _ _ _ (scover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

/-! ## A middle entity tile -/

theorem pieceB_0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay34 x0 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceB_1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay36 (k0_pay35 x0 x4 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceB_2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay37 (k0_pay28 x0) (k0_pay32 x5) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceB_3 (hc0 : ¬cond0_0 i) (hc1 : ¬cond0_1 i) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay38 (k0_pay28 x0) (k0_pay33 x6) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceB_4 (hc0 : ¬cond0_0 i) (hc1 : ¬cond0_1 i) :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay39 (k0_pay29 x1) (k0_pay30 x3) xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceB_5 (hc0 : ¬cond0_0 i) (hc1 : ¬cond0_1 i) :
    sout0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay40 (k0_pay29 x1) (k0_pay31 x4) xs5 := by
  unfold sout0_B_5
  rw [View.read_writes_eq_canon _ _ _ (scover0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceB_6 (hc0 : ¬cond0_0 i) (hc1 : ¬cond0_1 i) :
    sout0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay1 (k0_pay41 (k0_pay29 x1) (k0_pay32 x5) xs6) := by
  unfold sout0_B_6
  rw [View.read_writes_eq_canon _ _ _ (scover0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceB_7 (hc0 : ¬cond0_0 i) (hc1 : ¬cond0_1 i) :
    sout0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay2 (k0_pay29 x1) (k0_pay33 x6) xs7 := by
  unfold sout0_B_7
  rw [View.read_writes_eq_canon _ _ _ (scover0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

/-! ## The last entity tile -/

theorem pieceC_0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay34 x0 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceC_1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay36 (k0_pay35 x0 x4 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceC_2 (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay37 (k0_pay28 x0) (k0_pay32 x5) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceC_3 (hc0 : ¬cond0_0 i) (hc1 : cond0_1 i) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay38 (k0_pay28 x0) (k0_pay33 x6) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceC_4 (hc0 : ¬cond0_0 i) (hc1 : cond0_1 i) :
    sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay39 (k0_pay29 x1) (k0_pay30 x3) xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceC_5 (hc0 : ¬cond0_0 i) (hc1 : cond0_1 i) :
    sout0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay40 (k0_pay29 x1) (k0_pay31 x4) xs5 := by
  unfold sout0_C_5
  rw [View.read_writes_eq_canon _ _ _ (scover0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceC_6 (hc0 : ¬cond0_0 i) (hc1 : cond0_1 i) :
    sout0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay1 (k0_pay41 (k0_pay29 x1) (k0_pay32 x5) xs6) := by
  unfold sout0_C_6
  rw [View.read_writes_eq_canon _ _ _ (scover0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceC_7 (hc0 : ¬cond0_0 i) (hc1 : cond0_1 i) :
    sout0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11 = k0_pay2 (k0_pay29 x1) (k0_pay33 x6) xs7 := by
  unfold sout0_C_7
  rw [View.read_writes_eq_canon _ _ _ (scover0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

theorem pieceC_out (hc0 : ¬cond0_0 i) (hc1 : cond0_1 i) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11
      = k0_pay3 (k0_pay37 (k0_pay28 x0) (k0_pay32 x5) xs2) (k0_pay38 (k0_pay28 x0) (k0_pay33 x6) xs3) (k0_pay39 (k0_pay29 x1) (k0_pay30 x3) xs4) (k0_pay40 (k0_pay29 x1) (k0_pay31 x4) xs5) (k0_pay1 (k0_pay41 (k0_pay29 x1) (k0_pay32 x5) xs6)) (k0_pay2 (k0_pay29 x1) (k0_pay33 x6) xs7) xs8 xs9 (k0_pay21 (k0_pay34 x0 x3 xs0) (k0_pay36 (k0_pay35 x0 x4 xs1)) (k0_pay37 (k0_pay28 x0) (k0_pay32 x5) xs2) (k0_pay38 (k0_pay28 x0) (k0_pay33 x6) xs3) xs8 xs9 xs10 xs11) (k0_pay22 (k0_pay34 x0 x3 xs0) (k0_pay36 (k0_pay35 x0 x4 xs1)) (k0_pay37 (k0_pay28 x0) (k0_pay32 x5) xs2) (k0_pay38 (k0_pay28 x0) (k0_pay33 x6) xs3) xs8 xs9 xs10 xs11) (k0_pay23 (k0_pay34 x0 x3 xs0) (k0_pay36 (k0_pay35 x0 x4 xs1)) (k0_pay37 (k0_pay28 x0) (k0_pay32 x5) xs2) (k0_pay38 (k0_pay28 x0) (k0_pay33 x6) xs3) xs8 xs9 xs10 xs11) (k0_pay24 (k0_pay34 x0 x3 xs0) (k0_pay36 (k0_pay35 x0 x4 xs1)) xs10 xs11) := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 xs0 xs1 xs2 xs3 xs4 xs5 xs6 xs7 xs8 xs9 xs10 xs11)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S256x1280) hz, View.ld_unit_zero (S := S1280x256) hz, View.ld_unit_zero (S := S256x500) hz, View.ld_unit_zero (S := S500x256) hz, View.ld_unit_zero (S := S256x256) hz, View.ld_unit_zero (S := S256x1) hz, View.readCov_unit_zero (S := S256x256) _ hz]

end Free

/-! ## The same facts at a grid point, over the point's staging buffers and input blocks -/

section AtPoint

variable (m : (ℓ : Loc nD τ sig) → Buf (Elt F) ℓ) (c : Dev nD)

theorem pieceA_0_at (t : Fin cfg0.N) (hc0 : cond0_0 (grid0.coords t)) (hc1 : ¬cond0_1 (grid0.coords t)) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay34 (iblk m c 0 t) (iblk m c 3 t) k0_pay4 :=
  pieceA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) hc0 hc1

theorem pieceA_1_at (t : Fin cfg0.N) (hc0 : cond0_0 (grid0.coords t)) (hc1 : ¬cond0_1 (grid0.coords t)) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay36 (k0_pay35 (iblk m c 0 t) (iblk m c 4 t) k0_pay5) :=
  pieceA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) hc0 hc1

theorem pieceA_2_at (t : Fin cfg0.N) (hc0 : cond0_0 (grid0.coords t)) (hc1 : ¬cond0_1 (grid0.coords t)) :
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay37 (k0_pay28 (iblk m c 0 t)) (k0_pay32 (iblk m c 5 t)) k0_pay6 :=
  pieceA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) hc0 hc1

theorem pieceA_3_at (t : Fin cfg0.N) (hc0 : cond0_0 (grid0.coords t)) (hc1 : ¬cond0_1 (grid0.coords t)) :
    sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay38 (k0_pay28 (iblk m c 0 t)) (k0_pay33 (iblk m c 6 t)) k0_pay7 :=
  pieceA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) hc0 hc1

theorem pieceA_4_at (t : Fin cfg0.N) (hc0 : cond0_0 (grid0.coords t)) (hc1 : ¬cond0_1 (grid0.coords t)) :
    sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay39 (k0_pay29 (iblk m c 1 t)) (k0_pay30 (iblk m c 3 t)) k0_pay8 :=
  pieceA_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) hc0 hc1

theorem pieceA_5_at (t : Fin cfg0.N) (hc0 : cond0_0 (grid0.coords t)) (hc1 : ¬cond0_1 (grid0.coords t)) :
    sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay40 (k0_pay29 (iblk m c 1 t)) (k0_pay31 (iblk m c 4 t)) k0_pay9 :=
  pieceA_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) hc0 hc1

theorem pieceA_6_at (t : Fin cfg0.N) (hc0 : cond0_0 (grid0.coords t)) (hc1 : ¬cond0_1 (grid0.coords t)) :
    sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay1 (k0_pay41 (k0_pay29 (iblk m c 1 t)) (k0_pay32 (iblk m c 5 t)) k0_pay10) :=
  pieceA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) hc0 hc1

theorem pieceA_7_at (t : Fin cfg0.N) (hc0 : cond0_0 (grid0.coords t)) (hc1 : ¬cond0_1 (grid0.coords t)) :
    sout0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay2 (k0_pay29 (iblk m c 1 t)) (k0_pay33 (iblk m c 6 t)) (k0_pay12 k0_pay11) :=
  pieceA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) hc0 hc1

theorem pieceA_8_at (t : Fin cfg0.N) (hc0 : cond0_0 (grid0.coords t)) (hc1 : ¬cond0_1 (grid0.coords t)) :
    sout0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay19 (iblk m c 2 t) (iblk m c 7 t) (iblk m c 8 t) (iblk m c 9 t) (iblk m c 10 t) :=
  pieceA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) hc0 hc1

theorem pieceA_9_at (t : Fin cfg0.N) (hc0 : cond0_0 (grid0.coords t)) (hc1 : ¬cond0_1 (grid0.coords t)) :
    sout0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay25 (k0_pay20 (iblk m c 2 t) (iblk m c 7 t) (iblk m c 8 t) (iblk m c 9 t) (iblk m c 10 t)) :=
  pieceA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) hc0 hc1

theorem pieceA_10_at (t : Fin cfg0.N) (hc0 : cond0_0 (grid0.coords t)) (hc1 : ¬cond0_1 (grid0.coords t)) :
    sout0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay26 (k0_pay16 (iblk m c 2 t) (iblk m c 9 t)) (k0_pay18 (iblk m c 2 t) (iblk m c 7 t) (iblk m c 8 t) (iblk m c 9 t) (iblk m c 10 t)) :=
  pieceA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) hc0 hc1

theorem pieceA_11_at (t : Fin cfg0.N) (hc0 : cond0_0 (grid0.coords t)) (hc1 : ¬cond0_1 (grid0.coords t)) :
    sout0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay27 (k0_pay17 (iblk m c 2 t) (iblk m c 10 t)) (k0_pay18 (iblk m c 2 t) (iblk m c 7 t) (iblk m c 8 t) (iblk m c 9 t) (iblk m c 10 t)) :=
  pieceA_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) hc0 hc1

theorem pieceB_0_at (t : Fin cfg0.N) (hc0 : ¬cond0_0 (grid0.coords t)) (hc1 : ¬cond0_1 (grid0.coords t)) (xs0 xs1 xs2 xs3 xs4 xs5 xs6 xs7 xs8 xs9 xs10 xs11 : Vec F S256x256 .f32) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay34 (iblk m c 0 t) (iblk m c 3 t) xs0 :=
  pieceB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceB_1_at (t : Fin cfg0.N) (hc0 : ¬cond0_0 (grid0.coords t)) (hc1 : ¬cond0_1 (grid0.coords t)) (xs0 xs1 xs2 xs3 xs4 xs5 xs6 xs7 xs8 xs9 xs10 xs11 : Vec F S256x256 .f32) :
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay36 (k0_pay35 (iblk m c 0 t) (iblk m c 4 t) xs1) :=
  pieceB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceB_2_at (t : Fin cfg0.N) (hc0 : ¬cond0_0 (grid0.coords t)) (hc1 : ¬cond0_1 (grid0.coords t)) (xs0 xs1 xs2 xs3 xs4 xs5 xs6 xs7 xs8 xs9 xs10 xs11 : Vec F S256x256 .f32) :
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay37 (k0_pay28 (iblk m c 0 t)) (k0_pay32 (iblk m c 5 t)) xs2 :=
  pieceB_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceB_3_at (t : Fin cfg0.N) (hc0 : ¬cond0_0 (grid0.coords t)) (hc1 : ¬cond0_1 (grid0.coords t)) (xs0 xs1 xs2 xs3 xs4 xs5 xs6 xs7 xs8 xs9 xs10 xs11 : Vec F S256x256 .f32) :
    sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay38 (k0_pay28 (iblk m c 0 t)) (k0_pay33 (iblk m c 6 t)) xs3 :=
  pieceB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceB_4_at (t : Fin cfg0.N) (hc0 : ¬cond0_0 (grid0.coords t)) (hc1 : ¬cond0_1 (grid0.coords t)) (xs0 xs1 xs2 xs3 xs4 xs5 xs6 xs7 xs8 xs9 xs10 xs11 : Vec F S256x256 .f32) :
    sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay39 (k0_pay29 (iblk m c 1 t)) (k0_pay30 (iblk m c 3 t)) xs4 :=
  pieceB_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceB_5_at (t : Fin cfg0.N) (hc0 : ¬cond0_0 (grid0.coords t)) (hc1 : ¬cond0_1 (grid0.coords t)) (xs0 xs1 xs2 xs3 xs4 xs5 xs6 xs7 xs8 xs9 xs10 xs11 : Vec F S256x256 .f32) :
    sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay40 (k0_pay29 (iblk m c 1 t)) (k0_pay31 (iblk m c 4 t)) xs5 :=
  pieceB_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceB_6_at (t : Fin cfg0.N) (hc0 : ¬cond0_0 (grid0.coords t)) (hc1 : ¬cond0_1 (grid0.coords t)) (xs0 xs1 xs2 xs3 xs4 xs5 xs6 xs7 xs8 xs9 xs10 xs11 : Vec F S256x256 .f32) :
    sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay1 (k0_pay41 (k0_pay29 (iblk m c 1 t)) (k0_pay32 (iblk m c 5 t)) xs6) :=
  pieceB_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceB_7_at (t : Fin cfg0.N) (hc0 : ¬cond0_0 (grid0.coords t)) (hc1 : ¬cond0_1 (grid0.coords t)) (xs0 xs1 xs2 xs3 xs4 xs5 xs6 xs7 xs8 xs9 xs10 xs11 : Vec F S256x256 .f32) :
    sout0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay2 (k0_pay29 (iblk m c 1 t)) (k0_pay33 (iblk m c 6 t)) xs7 :=
  pieceB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceC_0_at (t : Fin cfg0.N) (hc0 : ¬cond0_0 (grid0.coords t)) (hc1 : cond0_1 (grid0.coords t)) (xs0 xs1 xs2 xs3 xs4 xs5 xs6 xs7 xs8 xs9 xs10 xs11 : Vec F S256x256 .f32) :
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay34 (iblk m c 0 t) (iblk m c 3 t) xs0 :=
  pieceC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceC_1_at (t : Fin cfg0.N) (hc0 : ¬cond0_0 (grid0.coords t)) (hc1 : cond0_1 (grid0.coords t)) (xs0 xs1 xs2 xs3 xs4 xs5 xs6 xs7 xs8 xs9 xs10 xs11 : Vec F S256x256 .f32) :
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay36 (k0_pay35 (iblk m c 0 t) (iblk m c 4 t) xs1) :=
  pieceC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceC_2_at (t : Fin cfg0.N) (hc0 : ¬cond0_0 (grid0.coords t)) (hc1 : cond0_1 (grid0.coords t)) (xs0 xs1 xs2 xs3 xs4 xs5 xs6 xs7 xs8 xs9 xs10 xs11 : Vec F S256x256 .f32) :
    sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay37 (k0_pay28 (iblk m c 0 t)) (k0_pay32 (iblk m c 5 t)) xs2 :=
  pieceC_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceC_3_at (t : Fin cfg0.N) (hc0 : ¬cond0_0 (grid0.coords t)) (hc1 : cond0_1 (grid0.coords t)) (xs0 xs1 xs2 xs3 xs4 xs5 xs6 xs7 xs8 xs9 xs10 xs11 : Vec F S256x256 .f32) :
    sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay38 (k0_pay28 (iblk m c 0 t)) (k0_pay33 (iblk m c 6 t)) xs3 :=
  pieceC_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceC_4_at (t : Fin cfg0.N) (hc0 : ¬cond0_0 (grid0.coords t)) (hc1 : cond0_1 (grid0.coords t)) (xs0 xs1 xs2 xs3 xs4 xs5 xs6 xs7 xs8 xs9 xs10 xs11 : Vec F S256x256 .f32) :
    sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay39 (k0_pay29 (iblk m c 1 t)) (k0_pay30 (iblk m c 3 t)) xs4 :=
  pieceC_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceC_5_at (t : Fin cfg0.N) (hc0 : ¬cond0_0 (grid0.coords t)) (hc1 : cond0_1 (grid0.coords t)) (xs0 xs1 xs2 xs3 xs4 xs5 xs6 xs7 xs8 xs9 xs10 xs11 : Vec F S256x256 .f32) :
    sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay40 (k0_pay29 (iblk m c 1 t)) (k0_pay31 (iblk m c 4 t)) xs5 :=
  pieceC_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceC_6_at (t : Fin cfg0.N) (hc0 : ¬cond0_0 (grid0.coords t)) (hc1 : cond0_1 (grid0.coords t)) (xs0 xs1 xs2 xs3 xs4 xs5 xs6 xs7 xs8 xs9 xs10 xs11 : Vec F S256x256 .f32) :
    sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay1 (k0_pay41 (k0_pay29 (iblk m c 1 t)) (k0_pay32 (iblk m c 5 t)) xs6) :=
  pieceC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceC_7_at (t : Fin cfg0.N) (hc0 : ¬cond0_0 (grid0.coords t)) (hc1 : cond0_1 (grid0.coords t)) (xs0 xs1 xs2 xs3 xs4 xs5 xs6 xs7 xs8 xs9 xs10 xs11 : Vec F S256x256 .f32) :
    sout0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 = k0_pay2 (k0_pay29 (iblk m c 1 t)) (k0_pay33 (iblk m c 6 t)) xs7 :=
  pieceC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

theorem pieceC_out_at (t : Fin cfg0.N) (hc0 : ¬cond0_0 (grid0.coords t)) (hc1 : cond0_1 (grid0.coords t)) (xs0 xs1 xs2 xs3 xs4 xs5 xs6 xs7 xs8 xs9 xs10 xs11 : Vec F S256x256 .f32) :
    out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11
      = k0_pay3 (k0_pay37 (k0_pay28 (iblk m c 0 t)) (k0_pay32 (iblk m c 5 t)) xs2) (k0_pay38 (k0_pay28 (iblk m c 0 t)) (k0_pay33 (iblk m c 6 t)) xs3) (k0_pay39 (k0_pay29 (iblk m c 1 t)) (k0_pay30 (iblk m c 3 t)) xs4) (k0_pay40 (k0_pay29 (iblk m c 1 t)) (k0_pay31 (iblk m c 4 t)) xs5) (k0_pay1 (k0_pay41 (k0_pay29 (iblk m c 1 t)) (k0_pay32 (iblk m c 5 t)) xs6)) (k0_pay2 (k0_pay29 (iblk m c 1 t)) (k0_pay33 (iblk m c 6 t)) xs7) xs8 xs9 (k0_pay21 (k0_pay34 (iblk m c 0 t) (iblk m c 3 t) xs0) (k0_pay36 (k0_pay35 (iblk m c 0 t) (iblk m c 4 t) xs1)) (k0_pay37 (k0_pay28 (iblk m c 0 t)) (k0_pay32 (iblk m c 5 t)) xs2) (k0_pay38 (k0_pay28 (iblk m c 0 t)) (k0_pay33 (iblk m c 6 t)) xs3) xs8 xs9 xs10 xs11) (k0_pay22 (k0_pay34 (iblk m c 0 t) (iblk m c 3 t) xs0) (k0_pay36 (k0_pay35 (iblk m c 0 t) (iblk m c 4 t) xs1)) (k0_pay37 (k0_pay28 (iblk m c 0 t)) (k0_pay32 (iblk m c 5 t)) xs2) (k0_pay38 (k0_pay28 (iblk m c 0 t)) (k0_pay33 (iblk m c 6 t)) xs3) xs8 xs9 xs10 xs11) (k0_pay23 (k0_pay34 (iblk m c 0 t) (iblk m c 3 t) xs0) (k0_pay36 (k0_pay35 (iblk m c 0 t) (iblk m c 4 t) xs1)) (k0_pay37 (k0_pay28 (iblk m c 0 t)) (k0_pay32 (iblk m c 5 t)) xs2) (k0_pay38 (k0_pay28 (iblk m c 0 t)) (k0_pay33 (iblk m c 6 t)) xs3) xs8 xs9 xs10 xs11) (k0_pay24 (k0_pay34 (iblk m c 0 t) (iblk m c 3 t) xs0) (k0_pay36 (k0_pay35 (iblk m c 0 t) (iblk m c 4 t) xs1)) xs10 xs11) :=
  pieceC_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3 xs4 xs5 xs6 xs7 xs8 xs9 xs10 xs11 hc0 hc1

end AtPoint

end Cert.KernelPieces

end
-- ==== Proof.KernelInputs.lean ====
/-
  What the kernel's eleven input blocks hold at a grid point, read at an index, in terms of the argument arrays.

  The grid is 8 row tiles by 16 entity tiles; point t is row tile t / 16 and entity tile t % 16.  Before the region
  the head and tail arrays [2048, 20000] are padded with zeros to [2048, 20480], and each entity weight matrix
  [256, 20000] is padded with zeros to [256, 20480] and transposed to [20480, 256]; the relation weight matrices are
  transposed to [500, 256].  So at point t the head block [256, 1280] holds, at (p, k), entry
  (256·(t/16) + p, 1280·(t%16) + k) of the head array when that column is below 20000 and zero otherwise, and an
  entity weight block [1280, 256] holds, at (k, d), entry (d, 1280·(t%16) + k) of the weight matrix or zero.  A row
  extended by zero to every natural position (rowExt, wrowExt) says both cases at once.
-/
import proofs.«106782_j49649821942232_1_alg».proof.Proof.PatchedKernelIdealFrame
import Idealize.ShloMosaic.Lib.ValueIdx
import Idealize.ShloMosaic.Lib.ValueLayout
import Idealize.ShloMosaic.Lib.KernelVsHost
import Idealize.ShloMosaic.Lib.StableHlo.Run

noncomputable section

namespace Cert.KernelInputs

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-- Row b of a [2048, 20000] array, extended by zero to every natural position. -/
def rowExt (x : S2048x20000.Idx → EReal) (b : Fin 2048) (j : ℕ) : EReal :=
  if h : j < 20000 then x (ix2 b ⟨j, h⟩) else 0

/-- Row d of a [256, 20000] weight matrix, extended by zero to every natural position. -/
def wrowExt (w : S256x20000.Idx → EReal) (d : Fin 256) (j : ℕ) : EReal :=
  if h : j < 20000 then w (ix2 d ⟨j, h⟩) else 0

/-- The array row that row p of the block at point t is: row tile t / 16, 256 rows a tile. -/
def rowOf (t : Fin cfg0.N) (p : Fin 256) : Fin 2048 :=
  ⟨256 * (t.val / 16) + p.val, by
    have h1 : t.val < 128 := lt_of_lt_of_eq t.isLt (show cfg0.N = 128 from N_0)
    have h2 := p.isLt
    omega⟩

/-- The eleven input blocks at point t, each named at its literal shape. -/
abbrev blkH (c : Dev nD) (t : Fin cfg0.N) : Vec Ideal S256x1280 .f32 := iblk (F := Ideal) m c 0 t
abbrev blkT (c : Dev nD) (t : Fin cfg0.N) : Vec Ideal S256x1280 .f32 := iblk (F := Ideal) m c 1 t
abbrev blkR (c : Dev nD) (t : Fin cfg0.N) : Vec Ideal S256x500 .f32 := iblk (F := Ideal) m c 2 t
abbrev blkWer (c : Dev nD) (t : Fin cfg0.N) : Vec Ideal S1280x256 .f32 := iblk (F := Ideal) m c 3 t
abbrev blkWei (c : Dev nD) (t : Fin cfg0.N) : Vec Ideal S1280x256 .f32 := iblk (F := Ideal) m c 4 t
abbrev blkWej (c : Dev nD) (t : Fin cfg0.N) : Vec Ideal S1280x256 .f32 := iblk (F := Ideal) m c 5 t
abbrev blkWek (c : Dev nD) (t : Fin cfg0.N) : Vec Ideal S1280x256 .f32 := iblk (F := Ideal) m c 6 t
abbrev blkWrr (c : Dev nD) (t : Fin cfg0.N) : Vec Ideal S500x256 .f32 := iblk (F := Ideal) m c 7 t
abbrev blkWri (c : Dev nD) (t : Fin cfg0.N) : Vec Ideal S500x256 .f32 := iblk (F := Ideal) m c 8 t
abbrev blkWrj (c : Dev nD) (t : Fin cfg0.N) : Vec Ideal S500x256 .f32 := iblk (F := Ideal) m c 9 t
abbrev blkWrk (c : Dev nD) (t : Fin cfg0.N) : Vec Ideal S500x256 .f32 := iblk (F := Ideal) m c 10 t

/-! ## The grid's block indices -/

/-- The printed index maps, decided once over the grid: the head, tail and relation blocks move with the row tile
    t / 16, the head, tail and entity weight blocks with the entity tile t % 16, and the relation weights stay. -/
theorem idx_facts : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = t.val % 16
    ∧ win0_2.index t (0 : Fin 2) = t.val / 16 ∧ win0_2.index t (1 : Fin 2) = 0
    ∧ win0_3.index t (0 : Fin 2) = t.val % 16 ∧ win0_3.index t (1 : Fin 2) = 0
    ∧ win0_4.index t (0 : Fin 2) = t.val % 16 ∧ win0_4.index t (1 : Fin 2) = 0
    ∧ win0_5.index t (0 : Fin 2) = t.val % 16 ∧ win0_5.index t (1 : Fin 2) = 0
    ∧ win0_6.index t (0 : Fin 2) = t.val % 16 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- The grid has 128 points. -/
theorem point_lt (t : Fin cfg0.N) : t.val < 128 := lt_of_lt_of_eq t.isLt (show cfg0.N = 128 from N_0)

/-- The padded column that column k of the block at point t is: entity tile t % 16, 1280 columns a tile. -/
def colOf (t : Fin cfg0.N) (k : Fin 1280) : Fin 20480 :=
  ⟨t.val % 16 * 1280 + k.val, by have := k.isLt; omega⟩

/-! ## Where a block's element sits in its array

On each axis the coordinate is the block index times the block's size plus the coordinate inside the block. -/

theorem embH (t : Fin cfg0.N) (p : Fin 256) (k : Fin 1280) :
    ((cfg0.win 0).blk t).view.emb (ix2 p k) = (ix2 (rowOf t p) (colOf t k) : S2048x20480.Idx) := by
  obtain ⟨e0, e1, -⟩ := idx_facts t
  funext a; apply Fin.ext
  match a with
  | ⟨0, _⟩ => show win0_0.index t (0 : Fin 2) * 256 + 1 * p.val = 256 * (t.val / 16) + p.val; omega
  | ⟨1, _⟩ => show win0_0.index t (1 : Fin 2) * 1280 + 1 * k.val = t.val % 16 * 1280 + k.val; omega

theorem embT (t : Fin cfg0.N) (p : Fin 256) (k : Fin 1280) :
    ((cfg0.win 1).blk t).view.emb (ix2 p k) = (ix2 (rowOf t p) (colOf t k) : S2048x20480.Idx) := by
  obtain ⟨-, -, e0, e1, -⟩ := idx_facts t
  funext a; apply Fin.ext
  match a with
  | ⟨0, _⟩ => show win0_1.index t (0 : Fin 2) * 256 + 1 * p.val = 256 * (t.val / 16) + p.val; omega
  | ⟨1, _⟩ => show win0_1.index t (1 : Fin 2) * 1280 + 1 * k.val = t.val % 16 * 1280 + k.val; omega

theorem embR (t : Fin cfg0.N) (p : Fin 256) (k : Fin 500) :
    ((cfg0.win 2).blk t).view.emb (ix2 p k) = (ix2 (rowOf t p) k : S2048x500.Idx) := by
  obtain ⟨-, -, -, -, e0, e1, -⟩ := idx_facts t
  funext a; apply Fin.ext
  match a with
  | ⟨0, _⟩ => show win0_2.index t (0 : Fin 2) * 256 + 1 * p.val = 256 * (t.val / 16) + p.val; omega
  | ⟨1, _⟩ => show win0_2.index t (1 : Fin 2) * 500 + 1 * k.val = k.val; omega

theorem embWer (t : Fin cfg0.N) (k : Fin 1280) (d : Fin 256) :
    ((cfg0.win 3).blk t).view.emb (ix2 k d) = (ix2 (colOf t k) d : S20480x256.Idx) := by
  obtain ⟨-, -, -, -, -, -, e0, e1, -⟩ := idx_facts t
  funext a; apply Fin.ext
  match a with
  | ⟨0, _⟩ => show win0_3.index t (0 : Fin 2) * 1280 + 1 * k.val = t.val % 16 * 1280 + k.val; omega
  | ⟨1, _⟩ => show win0_3.index t (1 : Fin 2) * 256 + 1 * d.val = d.val; omega

theorem embWei (t : Fin cfg0.N) (k : Fin 1280) (d : Fin 256) :
    ((cfg0.win 4).blk t).view.emb (ix2 k d) = (ix2 (colOf t k) d : S20480x256.Idx) := by
  obtain ⟨-, -, -, -, -, -, -, -, e0, e1, -⟩ := idx_facts t
  funext a; apply Fin.ext
  match a with
  | ⟨0, _⟩ => show win0_4.index t (0 : Fin 2) * 1280 + 1 * k.val = t.val % 16 * 1280 + k.val; omega
  | ⟨1, _⟩ => show win0_4.index t (1 : Fin 2) * 256 + 1 * d.val = d.val; omega

theorem embWej (t : Fin cfg0.N) (k : Fin 1280) (d : Fin 256) :
    ((cfg0.win 5).blk t).view.emb (ix2 k d) = (ix2 (colOf t k) d : S20480x256.Idx) := by
  obtain ⟨-, -, -, -, -, -, -, -, -, -, e0, e1, -⟩ := idx_facts t
  funext a; apply Fin.ext
  match a with
  | ⟨0, _⟩ => show win0_5.index t (0 : Fin 2) * 1280 + 1 * k.val = t.val % 16 * 1280 + k.val; omega
  | ⟨1, _⟩ => show win0_5.index t (1 : Fin 2) * 256 + 1 * d.val = d.val; omega

theorem embWek (t : Fin cfg0.N) (k : Fin 1280) (d : Fin 256) :
    ((cfg0.win 6).blk t).view.emb (ix2 k d) = (ix2 (colOf t k) d : S20480x256.Idx) := by
  obtain ⟨-, -, -, -, -, -, -, -, -, -, -, -, e0, e1, -⟩ := idx_facts t
  funext a; apply Fin.ext
  match a with
  | ⟨0, _⟩ => show win0_6.index t (0 : Fin 2) * 1280 + 1 * k.val = t.val % 16 * 1280 + k.val; omega
  | ⟨1, _⟩ => show win0_6.index t (1 : Fin 2) * 256 + 1 * d.val = d.val; omega

theorem embWrr (t : Fin cfg0.N) (k : Fin 500) (d : Fin 256) :
    ((cfg0.win 7).blk t).view.emb (ix2 k d) = (ix2 k d : S500x256.Idx) := by
  obtain ⟨-, -, -, -, -, -, -, -, -, -, -, -, -, -, e0, e1, -⟩ := idx_facts t
  funext a; apply Fin.ext
  match a with
  | ⟨0, _⟩ => show win0_7.index t (0 : Fin 2) * 500 + 1 * k.val = k.val; omega
  | ⟨1, _⟩ => show win0_7.index t (1 : Fin 2) * 256 + 1 * d.val = d.val; omega

theorem embWri (t : Fin cfg0.N) (k : Fin 500) (d : Fin 256) :
    ((cfg0.win 8).blk t).view.emb (ix2 k d) = (ix2 k d : S500x256.Idx) := by
  obtain ⟨-, -, -, -, -, -, -, -, -, -, -, -, -, -, -, -, e0, e1, -⟩ := idx_facts t
  funext a; apply Fin.ext
  match a with
  | ⟨0, _⟩ => show win0_8.index t (0 : Fin 2) * 500 + 1 * k.val = k.val; omega
  | ⟨1, _⟩ => show win0_8.index t (1 : Fin 2) * 256 + 1 * d.val = d.val; omega

theorem embWrj (t : Fin cfg0.N) (k : Fin 500) (d : Fin 256) :
    ((cfg0.win 9).blk t).view.emb (ix2 k d) = (ix2 k d : S500x256.Idx) := by
  obtain ⟨-, -, -, -, -, -, -, -, -, -, -, -, -, -, -, -, -, -, e0, e1, -⟩ := idx_facts t
  funext a; apply Fin.ext
  match a with
  | ⟨0, _⟩ => show win0_9.index t (0 : Fin 2) * 500 + 1 * k.val = k.val; omega
  | ⟨1, _⟩ => show win0_9.index t (1 : Fin 2) * 256 + 1 * d.val = d.val; omega

theorem embWrk (t : Fin cfg0.N) (k : Fin 500) (d : Fin 256) :
    ((cfg0.win 10).blk t).view.emb (ix2 k d) = (ix2 k d : S500x256.Idx) := by
  obtain ⟨-, -, -, -, -, -, -, -, -, -, -, -, -, -, -, -, -, -, -, -, e0, e1⟩ := idx_facts t
  funext a; apply Fin.ext
  match a with
  | ⟨0, _⟩ => show win0_10.index t (0 : Fin 2) * 500 + 1 * k.val = k.val; omega
  | ⟨1, _⟩ => show win0_10.index t (1 : Fin 2) * 256 + 1 * d.val = d.val; omega

/-! ## What the operations before the region left in the staged arrays -/

/-- The scalar the pads fill with is the integer zero converted: zero. -/
abbrev zeroFill : S_.Idx → EReal := sitofp (F := Ideal) .f32 (constantI S_ 32 0#32)

theorem zeroFill_first : zeroFill (Shape.Idx.first h_S_) = 0 := by
  show (((0#32 : BitVec 32).toInt : ℝ) : EReal) = 0
  rw [show (0#32 : BitVec 32).toInt = 0 from by decide]
  simp

theorem V_v0 (c : Dev nD) : (V m c main_v0 : S2048x20480.Idx → EReal)
    = pad S2048x20480 ![0, 0] ![0, 480] ![0, 0] (m ((c : Thread nD τ).loc main_arg0)) zeroFill
        pads_S2048x20000_S2048x20480_000_04800 h_S_ := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12,
    List.flatten_cons, List.flatten_nil, List.append_nil, List.cons_append, List.nil_append]
  after_results
  rfl

theorem V_v1 (c : Dev nD) : (V m c main_v1 : S2048x20480.Idx → EReal)
    = pad S2048x20480 ![0, 0] ![0, 480] ![0, 0] (m ((c : Thread nD τ).loc main_arg1)) zeroFill
        pads_S2048x20000_S2048x20480_000_04800 h_S_ := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12,
    List.flatten_cons, List.flatten_nil, List.append_nil, List.cons_append, List.nil_append]
  after_results
  rfl

theorem V_v3 (c : Dev nD) : (V m c main_v3 : S20480x256.Idx → EReal)
    = transpose S20480x256 [1, 0] (pad S256x20480 ![0, 0] ![0, 480] ![0, 0] (m ((c : Thread nD τ).loc main_arg3)) zeroFill
        pads_S256x20000_S256x20480_000_04800 h_S_) transposes_S256x20480_S20480x256_1_0 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12,
    List.flatten_cons, List.flatten_nil, List.append_nil, List.cons_append, List.nil_append]
  after_results
  rfl

theorem V_v5 (c : Dev nD) : (V m c main_v5 : S20480x256.Idx → EReal)
    = transpose S20480x256 [1, 0] (pad S256x20480 ![0, 0] ![0, 480] ![0, 0] (m ((c : Thread nD τ).loc main_arg4)) zeroFill
        pads_S256x20000_S256x20480_000_04800 h_S_) transposes_S256x20480_S20480x256_1_0 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12,
    List.flatten_cons, List.flatten_nil, List.append_nil, List.cons_append, List.nil_append]
  after_results
  rfl

theorem V_v7 (c : Dev nD) : (V m c main_v7 : S20480x256.Idx → EReal)
    = transpose S20480x256 [1, 0] (pad S256x20480 ![0, 0] ![0, 480] ![0, 0] (m ((c : Thread nD τ).loc main_arg5)) zeroFill
        pads_S256x20000_S256x20480_000_04800 h_S_) transposes_S256x20480_S20480x256_1_0 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12,
    List.flatten_cons, List.flatten_nil, List.append_nil, List.cons_append, List.nil_append]
  after_results
  rfl

theorem V_v9 (c : Dev nD) : (V m c main_v9 : S20480x256.Idx → EReal)
    = transpose S20480x256 [1, 0] (pad S256x20480 ![0, 0] ![0, 480] ![0, 0] (m ((c : Thread nD τ).loc main_arg6)) zeroFill
        pads_S256x20000_S256x20480_000_04800 h_S_) transposes_S256x20480_S20480x256_1_0 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12,
    List.flatten_cons, List.flatten_nil, List.append_nil, List.cons_append, List.nil_append]
  after_results
  rfl

theorem V_v10 (c : Dev nD) : (V m c main_v10 : S500x256.Idx → EReal)
    = transpose S500x256 [1, 0] (m ((c : Thread nD τ).loc main_arg7)) transposes_S256x500_S500x256_1_0 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12,
    List.flatten_cons, List.flatten_nil, List.append_nil, List.cons_append, List.nil_append]
  after_results

theorem V_v11 (c : Dev nD) : (V m c main_v11 : S500x256.Idx → EReal)
    = transpose S500x256 [1, 0] (m ((c : Thread nD τ).loc main_arg8)) transposes_S256x500_S500x256_1_0 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12,
    List.flatten_cons, List.flatten_nil, List.append_nil, List.cons_append, List.nil_append]
  after_results

theorem V_v12 (c : Dev nD) : (V m c main_v12 : S500x256.Idx → EReal)
    = transpose S500x256 [1, 0] (m ((c : Thread nD τ).loc main_arg9)) transposes_S256x500_S500x256_1_0 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12,
    List.flatten_cons, List.flatten_nil, List.append_nil, List.cons_append, List.nil_append]
  after_results

theorem V_v13 (c : Dev nD) : (V m c main_v13 : S500x256.Idx → EReal)
    = transpose S500x256 [1, 0] (m ((c : Thread nD τ).loc main_arg10)) transposes_S256x500_S500x256_1_0 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12,
    List.flatten_cons, List.flatten_nil, List.append_nil, List.cons_append, List.nil_append]
  after_results

/-! ## A padded array read at an index -/

/-- A [2048, 20000] array padded with a zero scalar to [2048, 20480], read at (b, j): the row extended by zero. -/
theorem pad_rows_apply (x : S2048x20000.Idx → EReal) (v : S_.Idx → EReal) (hv : v (Shape.Idx.first h_S_) = 0)
    (b : Fin 2048) (j : Fin 20480) :
    pad S2048x20480 ![0, 0] ![0, 480] ![0, 0] x v pads_S2048x20000_S2048x20480_000_04800 h_S_ (ix2 b j)
      = rowExt x b j.val := by
  unfold rowExt
  split
  · next h =>
    exact pad_apply_of_inside _ _ _ x v _ _ (ix2 b j) (ix2 b ⟨j.val, h⟩) (fun a => match a with
      | ⟨0, _⟩ => by show b.val = 0 + b.val * (0 + 1); omega
      | ⟨1, _⟩ => by show j.val = 0 + j.val * (0 + 1); omega)
  · next h =>
    rw [pad_apply_of_not_inside _ _ _ x v _ _ (ix2 b j) (1 : Fin 2)
      (by show ¬(0 ≤ j.val ∧ (j.val - 0) % (0 + 1) = 0 ∧ (j.val - 0) / (0 + 1) < 20000); omega), hv]

/-- A [256, 20000] weight matrix padded with a zero scalar to [256, 20480], read at (d, j). -/
theorem pad_wts_apply (w : S256x20000.Idx → EReal) (v : S_.Idx → EReal) (hv : v (Shape.Idx.first h_S_) = 0)
    (d : Fin 256) (j : Fin 20480) :
    pad S256x20480 ![0, 0] ![0, 480] ![0, 0] w v pads_S256x20000_S256x20480_000_04800 h_S_ (ix2 d j)
      = wrowExt w d j.val := by
  unfold wrowExt
  split
  · next h =>
    exact pad_apply_of_inside _ _ _ w v _ _ (ix2 d j) (ix2 d ⟨j.val, h⟩) (fun a => match a with
      | ⟨0, _⟩ => by show d.val = 0 + d.val * (0 + 1); omega
      | ⟨1, _⟩ => by show j.val = 0 + j.val * (0 + 1); omega)
  · next h =>
    rw [pad_apply_of_not_inside _ _ _ w v _ _ (ix2 d j) (1 : Fin 2)
      (by show ¬(0 ≤ j.val ∧ (j.val - 0) % (0 + 1) = 0 ∧ (j.val - 0) / (0 + 1) < 20000); omega), hv]

/-- The padded weight matrix transposed, read at (j, d). -/
theorem pad_wts_transposed_apply (w : S256x20000.Idx → EReal) (v : S_.Idx → EReal) (hv : v (Shape.Idx.first h_S_) = 0)
    (j : Fin 20480) (d : Fin 256) :
    transpose S20480x256 [1, 0] (pad S256x20480 ![0, 0] ![0, 480] ![0, 0] w v pads_S256x20000_S256x20480_000_04800 h_S_)
        transposes_S256x20480_S20480x256_1_0 (ix2 j d) = wrowExt w d j.val :=
  (transpose_ix2_apply _ transposes_S256x20480_S20480x256_1_0 j d).trans (pad_wts_apply w v hv d j)

/-! ## The eleven blocks -/

/-- The head block at (p, k): the head array's row, zero-extended, at column 1280·(t%16) + k. -/
theorem blkH_apply (c : Dev nD) (t : Fin cfg0.N) (p : Fin 256) (k : Fin 1280) :
    blkH m c t (ix2 p k) = rowExt (m ((c : Thread nD τ).loc main_arg0)) (rowOf t p) (t.val % 16 * 1280 + k.val) := by
  show V m c main_v0 (((cfg0.win 0).blk t).view.emb (ix2 p k)) = _
  rw [embH t p k, V_v0 m c]
  exact pad_rows_apply _ _ zeroFill_first (rowOf t p) (colOf t k)

/-- The tail block likewise. -/
theorem blkT_apply (c : Dev nD) (t : Fin cfg0.N) (p : Fin 256) (k : Fin 1280) :
    blkT m c t (ix2 p k) = rowExt (m ((c : Thread nD τ).loc main_arg1)) (rowOf t p) (t.val % 16 * 1280 + k.val) := by
  show V m c main_v1 (((cfg0.win 1).blk t).view.emb (ix2 p k)) = _
  rw [embT t p k, V_v1 m c]
  exact pad_rows_apply _ _ zeroFill_first (rowOf t p) (colOf t k)

/-- The relation block at (p, k): the relation array's entry of that row. -/
theorem blkR_apply (c : Dev nD) (t : Fin cfg0.N) (p : Fin 256) (k : Fin 500) :
    blkR m c t (ix2 p k) = m ((c : Thread nD τ).loc main_arg2) (ix2 (rowOf t p) k) := by
  show V m c main_arg2 (((cfg0.win 2).blk t).view.emb (ix2 p k)) = _
  rw [embR t p k, V_main_arg2 m c]

/-- An entity weight block at (k, d): the weight matrix's row d, zero-extended, at column 1280·(t%16) + k. -/
theorem blkWer_apply (c : Dev nD) (t : Fin cfg0.N) (k : Fin 1280) (d : Fin 256) :
    blkWer m c t (ix2 k d) = wrowExt (m ((c : Thread nD τ).loc main_arg3)) d (t.val % 16 * 1280 + k.val) := by
  show V m c main_v3 (((cfg0.win 3).blk t).view.emb (ix2 k d)) = _
  rw [embWer t k d, V_v3 m c]
  exact pad_wts_transposed_apply _ _ zeroFill_first (colOf t k) d
theorem blkWei_apply (c : Dev nD) (t : Fin cfg0.N) (k : Fin 1280) (d : Fin 256) :
    blkWei m c t (ix2 k d) = wrowExt (m ((c : Thread nD τ).loc main_arg4)) d (t.val % 16 * 1280 + k.val) := by
  show V m c main_v5 (((cfg0.win 4).blk t).view.emb (ix2 k d)) = _
  rw [embWei t k d, V_v5 m c]
  exact pad_wts_transposed_apply _ _ zeroFill_first (colOf t k) d
theorem blkWej_apply (c : Dev nD) (t : Fin cfg0.N) (k : Fin 1280) (d : Fin 256) :
    blkWej m c t (ix2 k d) = wrowExt (m ((c : Thread nD τ).loc main_arg5)) d (t.val % 16 * 1280 + k.val) := by
  show V m c main_v7 (((cfg0.win 5).blk t).view.emb (ix2 k d)) = _
  rw [embWej t k d, V_v7 m c]
  exact pad_wts_transposed_apply _ _ zeroFill_first (colOf t k) d
theorem blkWek_apply (c : Dev nD) (t : Fin cfg0.N) (k : Fin 1280) (d : Fin 256) :
    blkWek m c t (ix2 k d) = wrowExt (m ((c : Thread nD τ).loc main_arg6)) d (t.val % 16 * 1280 + k.val) := by
  show V m c main_v9 (((cfg0.win 6).blk t).view.emb (ix2 k d)) = _
  rw [embWek t k d, V_v9 m c]
  exact pad_wts_transposed_apply _ _ zeroFill_first (colOf t k) d

/-- A relation weight block at (k, d): the weight matrix at (d, k). -/
theorem blkWrr_apply (c : Dev nD) (t : Fin cfg0.N) (k : Fin 500) (d : Fin 256) :
    blkWrr m c t (ix2 k d) = m ((c : Thread nD τ).loc main_arg7) (ix2 d k) := by
  show V m c main_v10 (((cfg0.win 7).blk t).view.emb (ix2 k d)) = _
  rw [embWrr t k d, V_v10 m c]
  exact transpose_ix2_apply _ transposes_S256x500_S500x256_1_0 k d
theorem blkWri_apply (c : Dev nD) (t : Fin cfg0.N) (k : Fin 500) (d : Fin 256) :
    blkWri m c t (ix2 k d) = m ((c : Thread nD τ).loc main_arg8) (ix2 d k) := by
  show V m c main_v11 (((cfg0.win 8).blk t).view.emb (ix2 k d)) = _
  rw [embWri t k d, V_v11 m c]
  exact transpose_ix2_apply _ transposes_S256x500_S500x256_1_0 k d
theorem blkWrj_apply (c : Dev nD) (t : Fin cfg0.N) (k : Fin 500) (d : Fin 256) :
    blkWrj m c t (ix2 k d) = m ((c : Thread nD τ).loc main_arg9) (ix2 d k) := by
  show V m c main_v12 (((cfg0.win 9).blk t).view.emb (ix2 k d)) = _
  rw [embWrj t k d, V_v12 m c]
  exact transpose_ix2_apply _ transposes_S256x500_S500x256_1_0 k d
theorem blkWrk_apply (c : Dev nD) (t : Fin cfg0.N) (k : Fin 500) (d : Fin 256) :
    blkWrk m c t (ix2 k d) = m ((c : Thread nD τ).loc main_arg10) (ix2 d k) := by
  show V m c main_v13 (((cfg0.win 10).blk t).view.emb (ix2 k d)) = _
  rw [embWrk t k d, V_v13 m c]
  exact transpose_ix2_apply _ transposes_S256x500_S500x256_1_0 k d

end Cert.KernelInputs

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.LibKeepdimsColumn.lean ====
/-
  Reading a row reduction kept as a column. A kernel that writes `sum(x, axis=-1, keepdims=True)` over an `[a, b]`
  block produces an `[a]` vector of lane sums, casts it to the column `[a, 1]`, works on the column, and
  broadcasts it back over the `b` lanes. Three index-level readings, at the extended reals, over generic extents:
  the cast to a column, the broadcast of a column over the lanes, and the lane sum itself as a `Fin b`-indexed sum.
-/
import Idealize.ShloMosaic.Lib.Pipeline.Value
import Idealize.ShloMosaic.Lib.ValueIdx
import Idealize.ShloMosaic.PureOps.Ideal.Laws

namespace Cert.KeepdimsColumn

open Idealize.ShloMosaic Idealize.ShloMosaic.ValueIdx

variable {α : Type}

/-- An `[a]` array cast to the column `[a, 1]` reads, at `(p, u)`, the operand at `p`: both sit at row-major
    position `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column's entry of row `p`, whatever the lane `c`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` vector, read at row `p` on the extended reals, is the sum over the `b` lanes of
    that row: the source index over `p` with lane `k` inserted is `(p, k)`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (funext fun c => Fin.ext (by
    match c with
    | ⟨0, _⟩ => rfl
    | ⟨1, _⟩ => rfl))

end Cert.KeepdimsColumn
-- ==== Proof.QuatScore.lean ====
/-
  The score of a quaternion-valued link, as one function of the argument arrays.

  A head row h(b, ·) and a tail row t(b, ·) over 20000 entities and a relation row r(b, ·) over 500 relations are
  each projected to four 256-wide rows (the real part and the three imaginary parts of a quaternion per feature):
  H_c(b, d) = ∑_k h(b, k) · W_e^c(d, k), T_c likewise from t, and ρ_c(b, d) = ∑_k r(b, k) · W_r^c(d, k).  The relation
  quaternion is scaled by the square root of the row sum of its squared parts, R_c = n(b) · ρ_c with
  n(b) = sqrt(∑_d ρ_r² + ρ_i² + ρ_j² + ρ_k²).  The Hamilton product Q = H ⊗ R is dotted with T feature by feature,
  the features are summed, and the logistic function is applied.  Everything is read on the extended reals, in the
  order of operations both programs share.
-/
import Idealize.ShloMosaic.PureOps.Ideal
import Idealize.ShloMosaic.Lib.ValueIdx

noncomputable section

open scoped BigOperators

namespace Cert.QuatScore

open Idealize.ShloMosaic Idealize.ShloMosaic.ValueIdx

/-- A [2048, K] array, a [256, K] array, the [2048, 1] result. -/
abbrev Rows (K : ℕ) : Type := (⟨2, ![2048, K]⟩ : Shape).Idx → EReal
abbrev Wts (K : ℕ) : Type := (⟨2, ![256, K]⟩ : Shape).Idx → EReal
abbrev Col : Type := (⟨2, ![2048, 1]⟩ : Shape).Idx → EReal

/-- One projection entry: row b of x against row d of W. -/
def proj {K : ℕ} (x : Rows K) (W : Wts K) (b : Fin 2048) (d : Fin 256) : EReal :=
  ∑ k : Fin K, x (ix2 b k) * W (ix2 d k)

/-- The Hamilton product of (Hr, Hi, Hj, Hk) with (Rr, Ri, Rj, Rk), dotted with (Tr, Ti, Tj, Tk): one feature's
    contribution to the score. -/
def term (Hr Hi Hj Hk Tr Ti Tj Tk Rr Ri Rj Rk : EReal) : EReal :=
  (Hr * Rr - Hi * Ri - Hj * Rj - Hk * Rk) * Tr + (Hr * Ri + Hi * Rr + Hj * Rk - Hk * Rj) * Ti
    + (Hr * Rj - Hi * Rk + Hj * Rr + Hk * Ri) * Tj + (Hr * Rk + Hi * Rj - Hj * Ri + Hk * Rr) * Tk

/-- The squared size of the relation quaternion at one feature. -/
def sq4 (a b c d : EReal) : EReal := a * a + b * b + c * c + d * d

/-- The relation row's scale: the square root of the row sum of the squared parts. -/
def scale (r : Rows 500) (Wrr Wri Wrj Wrk : Wts 500) (b : Fin 2048) : EReal :=
  Ideal.sqrt (∑ d : Fin 256, sq4 (proj r Wrr b d) (proj r Wri b d) (proj r Wrj b d) (proj r Wrk b d))

/-- The score of row b before the logistic function. -/
def score (h t : Rows 20000) (r : Rows 500) (Wer Wei Wej Wek : Wts 20000) (Wrr Wri Wrj Wrk : Wts 500)
    (b : Fin 2048) : EReal :=
  ∑ d : Fin 256, term (proj h Wer b d) (proj h Wei b d) (proj h Wej b d) (proj h Wek b d)
    (proj t Wer b d) (proj t Wei b d) (proj t Wej b d) (proj t Wek b d)
    (scale r Wrr Wri Wrj Wrk b * proj r Wrr b d) (scale r Wrr Wri Wrj Wrk b * proj r Wri b d)
    (scale r Wrr Wri Wrj Wrk b * proj r Wrj b d) (scale r Wrr Wri Wrj Wrk b * proj r Wrk b d)

/-- The result column: the logistic function of each row's score. -/
def result (h t : Rows 20000) (r : Rows 500) (Wer Wei Wej Wek : Wts 20000) (Wrr Wri Wrj Wrk : Wts 500) : Col :=
  fun i => Ideal.logistic (score h t r Wer Wei Wej Wek Wrr Wri Wrj Wrk (i 0))

end Cert.QuatScore

end
-- ==== Proof.KernelPayloads.lean ====
/-
  The kernel body's stored values, read at an index on the extended reals.

  At a grid point the body holds a head block x and a tail block [256, 1280], four entity weight blocks [1280, 256],
  a relation block [256, 500] and four relation weight matrices [500, 256].  A change of float format is the identity
  here and a product accumulated into a zero matrix is the plain row-by-column sum, so
    * each of the eight accumulator stores is, at (p, d), the value carried in plus ∑_k x(p, k) · w(k, d);
    * the four relation stores are, at (p, d), n(p) · ρ_c(p, d) with ρ_c(p, d) = ∑_k r(p, k) · w_c(k, d) and
      n(p) = sqrt(∑_d ρ_r² + ρ_i² + ρ_j² + ρ_k²), the row sum kept as a column and broadcast back over the features;
    * the output store is, at row p, the logistic function of ∑_d term(H(p, d), T(p, d), R(p, d)), the Hamilton
      product dotted with T feature by feature.
-/
import proofs.«106782_j49649821942232_1_alg».proof.Proof.Gen.KernelIdeal.Skeleton
import proofs.«106782_j49649821942232_1_alg».proof.Proof.LibPlainMatmul
import proofs.«106782_j49649821942232_1_alg».proof.Proof.LibKeepdimsColumn
import proofs.«106782_j49649821942232_1_alg».proof.Proof.QuatScore
import Idealize.ShloMosaic.Lib.Pipeline.Value
import Idealize.ShloMosaic.Lib.ValueIdx

noncomputable section

open scoped BigOperators

namespace Cert.KernelPayloads

open Cert.KernelIdeal Cert.KernelIdeal.Gen Idealize.ShloMosaic Idealize.ShloMosaic.ValueIdx

/-- Row p of an entity block against column d of an entity weight block. -/
def blockDot (x : Vec Ideal S256x1280 .f32) (w : Vec Ideal S1280x256 .f32) (p d : Fin 256) : EReal :=
  ∑ k : Fin 1280, x (ix2 p k) * w (ix2 k d)

/-- Row p of the relation block against column d of a relation weight matrix. -/
def relDot (r : Vec Ideal S256x500 .f32) (w : Vec Ideal S500x256 .f32) (p d : Fin 256) : EReal :=
  ∑ k : Fin 500, r (ix2 p k) * w (ix2 k d)

/-- The relation row's scale inside the block: the square root of the row sum of the squared parts. -/
def blockScale (r : Vec Ideal S256x500 .f32) (w7 w8 w9 w10 : Vec Ideal S500x256 .f32) (p : Fin 256) : EReal :=
  Ideal.sqrt (∑ d : Fin 256, Cert.QuatScore.sq4 (relDot r w7 p d) (relDot r w8 p d) (relDot r w9 p d) (relDot r w10 p d))

/-! ## The two products -/

/-- The entity product into a zero matrix, its operands narrowed to bf16, at (p, d). -/
theorem entityProduct_apply (x : Vec Ideal S256x1280 .f32) (w : Vec Ideal S1280x256 .f32) (p d : Fin 256) :
    matmul (F := Ideal) dot_S256x1280_S1280x256_S256x256_1_0_0_1_n_n none (truncf .bf16 x bitsLt_bf16_f32)
      (truncf .bf16 w bitsLt_bf16_f32) (constant S256x256 .f32 0x00000000#32) (ix2 p d) = blockDot x w p d :=
  Cert.LibPlainMatmul.matmul_plain_apply (M := 256) (K := 1280) (N := 256) none
    (truncf .bf16 x bitsLt_bf16_f32) (truncf .bf16 w bitsLt_bf16_f32) p d

/-- The relation product likewise. -/
theorem relationProduct_apply (r : Vec Ideal S256x500 .f32) (w : Vec Ideal S500x256 .f32) (p d : Fin 256) :
    matmul (F := Ideal) dot_S256x500_S500x256_S256x256_1_0_0_1_n_n none (truncf .bf16 r bitsLt_bf16_f32)
      (truncf .bf16 w bitsLt_bf16_f32) (constant S256x256 .f32 0x00000000#32) (ix2 p d) = relDot r w p d :=
  Cert.LibPlainMatmul.matmul_plain_apply (M := 256) (K := 500) (N := 256) none
    (truncf .bf16 r bitsLt_bf16_f32) (truncf .bf16 w bitsLt_bf16_f32) p d

/-! ## The eight accumulator stores: the value carried in plus the block's product -/

theorem acc0_apply (x : Vec Ideal S256x1280 .f32) (w : Vec Ideal S1280x256 .f32) (a : Vec Ideal S256x256 .f32) (p d : Fin 256) :
    k0_pay34 (F := Ideal) x w a (ix2 p d) = a (ix2 p d) + blockDot x w p d := by
  simp only [k0_pay34, k0_pay28, k0_pay30, shapeCast_self]
  exact congrArg (a (ix2 p d) + ·) (entityProduct_apply x w p d)

theorem acc1_apply (x : Vec Ideal S256x1280 .f32) (w : Vec Ideal S1280x256 .f32) (a : Vec Ideal S256x256 .f32) (p d : Fin 256) :
    k0_pay36 (F := Ideal) (k0_pay35 x w a) (ix2 p d) = a (ix2 p d) + blockDot x w p d := by
  simp only [k0_pay36, k0_pay35, k0_pay28, k0_pay31, shapeCast_self]
  exact congrArg (a (ix2 p d) + ·) (entityProduct_apply x w p d)

theorem acc2_apply (x : Vec Ideal S256x1280 .f32) (w : Vec Ideal S1280x256 .f32) (a : Vec Ideal S256x256 .f32) (p d : Fin 256) :
    k0_pay37 (F := Ideal) (k0_pay28 x) (k0_pay32 w) a (ix2 p d) = a (ix2 p d) + blockDot x w p d := by
  simp only [k0_pay37, k0_pay28, k0_pay32, shapeCast_self]
  exact congrArg (a (ix2 p d) + ·) (entityProduct_apply x w p d)

theorem acc3_apply (x : Vec Ideal S256x1280 .f32) (w : Vec Ideal S1280x256 .f32) (a : Vec Ideal S256x256 .f32) (p d : Fin 256) :
    k0_pay38 (F := Ideal) (k0_pay28 x) (k0_pay33 w) a (ix2 p d) = a (ix2 p d) + blockDot x w p d := by
  simp only [k0_pay38, k0_pay28, k0_pay33, shapeCast_self]
  exact congrArg (a (ix2 p d) + ·) (entityProduct_apply x w p d)

theorem acc4_apply (x : Vec Ideal S256x1280 .f32) (w : Vec Ideal S1280x256 .f32) (a : Vec Ideal S256x256 .f32) (p d : Fin 256) :
    k0_pay39 (F := Ideal) (k0_pay29 x) (k0_pay30 w) a (ix2 p d) = a (ix2 p d) + blockDot x w p d := by
  simp only [k0_pay39, k0_pay29, k0_pay30, shapeCast_self]
  exact congrArg (a (ix2 p d) + ·) (entityProduct_apply x w p d)

theorem acc5_apply (x : Vec Ideal S256x1280 .f32) (w : Vec Ideal S1280x256 .f32) (a : Vec Ideal S256x256 .f32) (p d : Fin 256) :
    k0_pay40 (F := Ideal) (k0_pay29 x) (k0_pay31 w) a (ix2 p d) = a (ix2 p d) + blockDot x w p d := by
  simp only [k0_pay40, k0_pay29, k0_pay31, shapeCast_self]
  exact congrArg (a (ix2 p d) + ·) (entityProduct_apply x w p d)

theorem acc6_apply (x : Vec Ideal S256x1280 .f32) (w : Vec Ideal S1280x256 .f32) (a : Vec Ideal S256x256 .f32) (p d : Fin 256) :
    k0_pay1 (F := Ideal) (k0_pay41 (k0_pay29 x) (k0_pay32 w) a) (ix2 p d) = a (ix2 p d) + blockDot x w p d := by
  simp only [k0_pay1, k0_pay41, k0_pay29, k0_pay32, shapeCast_self]
  exact congrArg (a (ix2 p d) + ·) (entityProduct_apply x w p d)

theorem acc7_apply (x : Vec Ideal S256x1280 .f32) (w : Vec Ideal S1280x256 .f32) (a : Vec Ideal S256x256 .f32) (p d : Fin 256) :
    k0_pay2 (F := Ideal) (k0_pay29 x) (k0_pay33 w) a (ix2 p d) = a (ix2 p d) + blockDot x w p d := by
  simp only [k0_pay2, k0_pay29, k0_pay33, shapeCast_self]
  exact congrArg (a (ix2 p d) + ·) (entityProduct_apply x w p d)

/-! ## The accumulators' reset values are zero everywhere -/

theorem reset0_apply (i : S256x256.Idx) : k0_pay4 (F := Ideal) i = 0 := by
  simp only [k0_pay4, shapeCast_self]
  exact Ideal.ofBits_zero_f32

theorem reset1_apply (i : S256x256.Idx) : k0_pay5 (F := Ideal) i = 0 := by
  simp only [k0_pay5, shapeCast_self]
  exact Ideal.ofBits_zero_f32

theorem reset2_apply (i : S256x256.Idx) : k0_pay6 (F := Ideal) i = 0 := by
  simp only [k0_pay6, shapeCast_self]
  exact Ideal.ofBits_zero_f32

theorem reset3_apply (i : S256x256.Idx) : k0_pay7 (F := Ideal) i = 0 := by
  simp only [k0_pay7, shapeCast_self]
  exact Ideal.ofBits_zero_f32

theorem reset4_apply (i : S256x256.Idx) : k0_pay8 (F := Ideal) i = 0 := by
  simp only [k0_pay8, shapeCast_self]
  exact Ideal.ofBits_zero_f32

theorem reset5_apply (i : S256x256.Idx) : k0_pay9 (F := Ideal) i = 0 := by
  simp only [k0_pay9, shapeCast_self]
  exact Ideal.ofBits_zero_f32

theorem reset6_apply (i : S256x256.Idx) : k0_pay10 (F := Ideal) i = 0 := by
  simp only [k0_pay10, shapeCast_self]
  exact Ideal.ofBits_zero_f32

theorem reset7_apply (i : S256x256.Idx) : k0_pay12 (F := Ideal) k0_pay11 i = 0 := by
  simp only [k0_pay12, k0_pay11, shapeCast_self]
  exact Ideal.ofBits_zero_f32

/-! ## The relation quaternion -/

theorem rel0_apply (r : Vec Ideal S256x500 .f32) (w : Vec Ideal S500x256 .f32) (p d : Fin 256) :
    k0_pay14 (F := Ideal) r w (ix2 p d) = relDot r w p d := by
  simp only [k0_pay14, k0_pay13, shapeCast_self]
  exact relationProduct_apply r w p d

theorem rel1_apply (r : Vec Ideal S256x500 .f32) (w : Vec Ideal S500x256 .f32) (p d : Fin 256) :
    k0_pay15 (F := Ideal) r w (ix2 p d) = relDot r w p d := by
  simp only [k0_pay15, k0_pay13, shapeCast_self]
  exact relationProduct_apply r w p d

theorem rel2_apply (r : Vec Ideal S256x500 .f32) (w : Vec Ideal S500x256 .f32) (p d : Fin 256) :
    k0_pay16 (F := Ideal) r w (ix2 p d) = relDot r w p d := by
  simp only [k0_pay16, k0_pay13, shapeCast_self]
  exact relationProduct_apply r w p d

theorem rel3_apply (r : Vec Ideal S256x500 .f32) (w : Vec Ideal S500x256 .f32) (p d : Fin 256) :
    k0_pay17 (F := Ideal) r w (ix2 p d) = relDot r w p d := by
  simp only [k0_pay17, k0_pay13, shapeCast_self]
  exact relationProduct_apply r w p d

/-- The scale column at row p. -/
theorem scale_apply (r : Vec Ideal S256x500 .f32) (w7 w8 w9 w10 : Vec Ideal S500x256 .f32) (p : Fin 256) (u : Fin 1) :
    k0_pay18 (F := Ideal) r w7 w8 w9 w10 (ix2 p u) = blockScale r w7 w8 w9 w10 p := by
  unfold k0_pay18 blockScale
  show Ideal.sqrt (shapeCast S256x1 _ shapeCasts_S256_S256x1 (ix2 p u)) = _
  rw [Cert.KeepdimsColumn.shapeCast_a_a1_apply]
  refine congrArg Ideal.sqrt ((Cert.KeepdimsColumn.laneSum_apply (a := 256) (b := 256) _ _ _ _ _ p).trans
    (Finset.sum_congr rfl fun d _ => ?_))
  show (k0_pay14 r w7 (ix2 p d) * k0_pay14 r w7 (ix2 p d) + k0_pay15 r w8 (ix2 p d) * k0_pay15 r w8 (ix2 p d)
    + k0_pay16 r w9 (ix2 p d) * k0_pay16 r w9 (ix2 p d)) + k0_pay17 r w10 (ix2 p d) * k0_pay17 r w10 (ix2 p d) = _
  rw [rel0_apply, rel1_apply, rel2_apply, rel3_apply]
  rfl

theorem relStore0_apply (r : Vec Ideal S256x500 .f32) (w7 w8 w9 w10 : Vec Ideal S500x256 .f32) (p d : Fin 256) :
    k0_pay19 (F := Ideal) r w7 w8 w9 w10 (ix2 p d) = blockScale r w7 w8 w9 w10 p * relDot r w7 p d := by
  simp only [k0_pay19, shapeCast_self]
  show broadcastTo S256x256 (k0_pay18 r w7 w8 w9 w10) broadcasts_S256x1_S256x256 (ix2 p d) * k0_pay14 r w7 (ix2 p d) = _
  rw [Cert.KeepdimsColumn.broadcastTo_a1_ab_apply, scale_apply, rel0_apply]

theorem relStore1_apply (r : Vec Ideal S256x500 .f32) (w7 w8 w9 w10 : Vec Ideal S500x256 .f32) (p d : Fin 256) :
    k0_pay25 (F := Ideal) (k0_pay20 r w7 w8 w9 w10) (ix2 p d) = blockScale r w7 w8 w9 w10 p * relDot r w8 p d := by
  simp only [k0_pay25, k0_pay20, shapeCast_self]
  show broadcastTo S256x256 (k0_pay18 r w7 w8 w9 w10) broadcasts_S256x1_S256x256 (ix2 p d) * k0_pay15 r w8 (ix2 p d) = _
  rw [Cert.KeepdimsColumn.broadcastTo_a1_ab_apply, scale_apply, rel1_apply]

theorem relStore2_apply (r : Vec Ideal S256x500 .f32) (w7 w8 w9 w10 : Vec Ideal S500x256 .f32) (p d : Fin 256) :
    k0_pay26 (F := Ideal) (k0_pay16 r w9) (k0_pay18 r w7 w8 w9 w10) (ix2 p d) = blockScale r w7 w8 w9 w10 p * relDot r w9 p d := by
  simp only [k0_pay26, shapeCast_self]
  show broadcastTo S256x256 (k0_pay18 r w7 w8 w9 w10) broadcasts_S256x1_S256x256 (ix2 p d) * k0_pay16 r w9 (ix2 p d) = _
  rw [Cert.KeepdimsColumn.broadcastTo_a1_ab_apply, scale_apply, rel2_apply]

theorem relStore3_apply (r : Vec Ideal S256x500 .f32) (w7 w8 w9 w10 : Vec Ideal S500x256 .f32) (p d : Fin 256) :
    k0_pay27 (F := Ideal) (k0_pay17 r w10) (k0_pay18 r w7 w8 w9 w10) (ix2 p d) = blockScale r w7 w8 w9 w10 p * relDot r w10 p d := by
  simp only [k0_pay27, shapeCast_self]
  show broadcastTo S256x256 (k0_pay18 r w7 w8 w9 w10) broadcasts_S256x1_S256x256 (ix2 p d) * k0_pay17 r w10 (ix2 p d) = _
  rw [Cert.KeepdimsColumn.broadcastTo_a1_ab_apply, scale_apply, rel3_apply]

/-! ## The output store -/

/-- The output column at row p: the logistic function of the feature sum of the Hamilton product dotted with T. -/
theorem out_apply (Hr Hi Hj Hk Tr Ti Tj Tk Rr Ri Rj Rk : Vec Ideal S256x256 .f32) (p : Fin 256) (u : Fin 1) :
    k0_pay3 (F := Ideal) Hj Hk Tr Ti Tj Tk Rr Ri (k0_pay21 Hr Hi Hj Hk Rr Ri Rj Rk) (k0_pay22 Hr Hi Hj Hk Rr Ri Rj Rk)
      (k0_pay23 Hr Hi Hj Hk Rr Ri Rj Rk) (k0_pay24 Hr Hi Rj Rk) (ix2 p u)
      = Ideal.logistic (∑ d : Fin 256, Cert.QuatScore.term (Hr (ix2 p d)) (Hi (ix2 p d)) (Hj (ix2 p d)) (Hk (ix2 p d))
          (Tr (ix2 p d)) (Ti (ix2 p d)) (Tj (ix2 p d)) (Tk (ix2 p d)) (Rr (ix2 p d)) (Ri (ix2 p d)) (Rj (ix2 p d)) (Rk (ix2 p d))) := by
  unfold k0_pay3
  show Ideal.logistic (shapeCast S256x1 _ shapeCasts_S256_S256x1 (ix2 p u)) = _
  rw [Cert.KeepdimsColumn.shapeCast_a_a1_apply]
  exact congrArg Ideal.logistic ((Cert.KeepdimsColumn.laneSum_apply (a := 256) (b := 256) _ _ _ _ _ p).trans
    (Finset.sum_congr rfl fun d _ => rfl))

end Cert.KernelPayloads

end
-- ==== Proof.LibTiledSum.lean ====
/-
  Sums over a range cut into equal tiles, in any commutative additive monoid (the extended reals among them: no
  finiteness is used, only that addition commutes and associates).

  * `tile_lt`: position `b` of tile `a` lies inside `A` tiles of length `B`.
  * `sum_fin_tiles`: a sum over `N = A * B` indices is the sum over the tiles of the sums inside each tile.
  * `sum_range_tiles`: the same for a `Finset.range` sum of a function of the naturals.
  * `sum_sum_fin_tiles`: a double sum over a rectangle `(A * BJ) × (C * BK)` is the sum over the `A × C` tiles of the
    double sums inside each `BJ × BK` tile.
-/
import Mathlib.Algebra.BigOperators.Fin
import Mathlib.Algebra.BigOperators.Group.Finset.Basic
import Mathlib.Logic.Equiv.Fin.Basic
import Mathlib.Tactic.Ring

open scoped BigOperators

namespace TiledSum

/-- Position `b` of tile `a`, among `A` tiles of length `B`, is below `A * B`. -/
theorem tile_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B (by omega)

/-- A sum over `N = A * B` indices, tile by tile. -/
theorem sum_fin_tiles {M : Type*} [AddCommMonoid M] {N : ℕ} (A B : ℕ) (h : N = A * B) (f : Fin N → M) :
    ∑ j : Fin N, f j = ∑ a : Fin A, ∑ b : Fin B, f ⟨a.val * B + b.val, h ▸ tile_lt a b⟩ := by
  subst h
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- A `Finset.range` sum over `A * B` naturals, tile by tile. -/
theorem sum_range_tiles {M : Type*} [AddCommMonoid M] (A B : ℕ) (g : ℕ → M) :
    ∑ s ∈ Finset.range (A * B), g s = ∑ a : Fin A, ∑ b : Fin B, g (a.val * B + b.val) := by
  rw [Finset.sum_range, sum_fin_tiles A B rfl]

/-- A double sum over an `(A * BJ) × (C * BK)` rectangle: over the `A × C` tiles, then inside each `BJ × BK` tile. -/
theorem sum_sum_fin_tiles {M : Type*} [AddCommMonoid M] {NJ NK : ℕ} (A BJ C BK : ℕ) (hJ : NJ = A * BJ) (hK : NK = C * BK)
    (f : Fin NJ → Fin NK → M) :
    ∑ j : Fin NJ, ∑ k : Fin NK, f j k
      = ∑ a : Fin A, ∑ c : Fin C, ∑ jl : Fin BJ, ∑ kl : Fin BK,
          f ⟨a.val * BJ + jl.val, hJ ▸ tile_lt a jl⟩ ⟨c.val * BK + kl.val, hK ▸ tile_lt c kl⟩ := by
  rw [sum_fin_tiles A BJ hJ]
  refine Finset.sum_congr rfl fun a _ => ?_
  exact (Finset.sum_congr rfl fun jl _ => sum_fin_tiles C BK hK _).trans Finset.sum_comm

end TiledSum
-- ==== Proof.LibPaddedBlocks.lean ====
/-
  A dot product over N positions, computed on rows padded with zeros to A * B positions and taken in A blocks of B.

  Two rows x, w of length N are extended to every natural position (X, W), agreeing with x, w below N and zero from
  N on.  If the addend of block s is the block's own sum of products, ∑_{k < B} X(s·B + k) · W(s·B + k), then the A
  addends together are the plain dot product ∑_{K < N} x(K) · w(K): the blocks tile the first A · B = N + P positions,
  and each of the last P products is 0 · 0.  Only that addition commutes and associates and that 0 · 0 = 0 is used:
  no entry is asked to be finite.
-/
import Mathlib.Data.EReal.Basic
import Mathlib.Algebra.BigOperators.Fin
import proofs.«106782_j49649821942232_1_alg».proof.Proof.LibTiledSum

open scoped BigOperators

namespace Cert.LibPaddedBlocks

/-- The blocks' addends sum to the dot product of the unpadded rows. -/
theorem sum_blocks_eq_dot {N P A B : ℕ} (hAB : A * B = N + P) (x w : Fin N → EReal) (X W : ℕ → EReal)
    (hX : ∀ K : Fin N, X K.val = x K) (hX0 : ∀ j : ℕ, N ≤ j → X j = 0)
    (hW : ∀ K : Fin N, W K.val = w K) (hW0 : ∀ j : ℕ, N ≤ j → W j = 0)
    (M : ℕ → EReal) (hM : ∀ s : ℕ, s < A → M s = ∑ k : Fin B, X (s * B + k.val) * W (s * B + k.val)) :
    ∑ s ∈ Finset.range A, M s = ∑ K : Fin N, x K * w K := by
  have h1 : ∑ s ∈ Finset.range A, M s = ∑ s ∈ Finset.range A, ∑ k : Fin B, X (s * B + k.val) * W (s * B + k.val) :=
    Finset.sum_congr rfl fun s hs => hM s (Finset.mem_range.mp hs)
  rw [h1, Finset.sum_range (fun s => ∑ k : Fin B, X (s * B + k.val) * W (s * B + k.val)),
    ← TiledSum.sum_range_tiles A B (fun j => X j * W j), hAB, Finset.sum_range, Fin.sum_univ_add]
  have h2 : ∑ i : Fin P, X (Fin.natAdd N i).val * W (Fin.natAdd N i).val = 0 :=
    Finset.sum_eq_zero fun i _ => by
      rw [hX0 _ (by simp [Fin.natAdd]), hW0 _ (by simp [Fin.natAdd]), mul_zero]
  rw [h2, add_zero]
  exact Finset.sum_congr rfl fun K _ => by
    show X K.val * W K.val = _
    rw [hX, hW]

end Cert.LibPaddedBlocks
-- ==== Proof.KernelFold.lean ====
/-
  A scratch accumulated over the sixteen entity tiles of a row tile, and a scratch set once per row tile.

  The grid's point n is row tile n / 16 and entity tile n % 16.  An accumulator scratch is reset at the first entity
  tile to (zero plus) that tile's block product and gains the tile's block product at every later one, so after point
  t it holds zero plus the products of tiles 0 … t % 16 of its row tile; after the last tile these sixteen products are,
  entry by entry, the whole projection ∑_K x(row, K) · w(d, K) over the 20000 unpadded columns (the padding columns
  contribute 0 · 0).  A relation scratch is written at the first entity tile and kept at the others, so after any point
  of the row tile it holds what the first point wrote.
-/
import proofs.«106782_j49649821942232_1_alg».proof.Proof.KernelInputs
import proofs.«106782_j49649821942232_1_alg».proof.Proof.KernelPayloads
import proofs.«106782_j49649821942232_1_alg».proof.Proof.LibPaddedBlocks
import Idealize.ShloMosaic.Lib.Pipeline.Value

noncomputable section

open scoped BigOperators

namespace Cert.KernelFold

open Cert.KernelIdeal Cert.KernelIdeal.Gen Idealize.ShloMosaic Idealize.ShloMosaic.ValueIdx
open Cert.KernelPayloads Cert.KernelInputs

/-- The grid has 128 points. -/
theorem points : cfg0.N = 128 := N_0

/-- The block product point n adds into an accumulator, as a function of every natural n (zero past the grid). -/
def addend (X : Fin cfg0.N → Vec Ideal S256x1280 .f32) (W : Fin cfg0.N → Vec Ideal S1280x256 .f32) (n : ℕ)
    (i : S256x256.Idx) : EReal :=
  if h : n < cfg0.N then blockDot (X ⟨n, h⟩) (W ⟨n, h⟩) ⟨(i 0).val, (i 0).isLt⟩ ⟨(i 1).val, (i 1).isLt⟩ else 0

theorem addend_ix2 (X : Fin cfg0.N → Vec Ideal S256x1280 .f32) (W : Fin cfg0.N → Vec Ideal S1280x256 .f32) (n : ℕ)
    (h : n < cfg0.N) (p d : Fin 256) : addend X W n (ix2 p d) = blockDot (X ⟨n, h⟩) (W ⟨n, h⟩) p d := by
  unfold addend
  rw [dif_pos h]

/-- An accumulator after point t: zero plus the block products of its row tile's entity tiles 0 … t % 16. -/
theorem fold_apply (f : (n : ℕ) → n < cfg0.N → Vec Ideal S256x256 .f32)
    (sc : (n : ℕ) → n < cfg0.N → Vec Ideal S256x256 .f32 → Vec Ideal S256x256 .f32) (junk : Vec Ideal S256x256 .f32)
    (X : Fin cfg0.N → Vec Ideal S256x1280 .f32) (W : Fin cfg0.N → Vec Ideal S1280x256 .f32)
    (hfold : ∀ (t : Fin cfg0.N) (hb : 16 * (t.val / 16) + t.val % 16 < cfg0.N),
      f t.val t.isLt = Pipeline.accAt (fun n h => sc n h junk) sc (16 * (t.val / 16)) (t.val % 16) hb)
    (hreset : ∀ (n : ℕ) (h : n < cfg0.N), n % 16 = 0 → ∀ (acc : Vec Ideal S256x256 .f32) (p d : Fin 256),
      sc n h acc (ix2 p d) = 0 + blockDot (X ⟨n, h⟩) (W ⟨n, h⟩) p d)
    (hstep : ∀ (n : ℕ) (h : n < cfg0.N), ¬n % 16 = 0 → ∀ (acc : Vec Ideal S256x256 .f32) (p d : Fin 256),
      sc n h acc (ix2 p d) = acc (ix2 p d) + blockDot (X ⟨n, h⟩) (W ⟨n, h⟩) p d)
    (t : Fin cfg0.N) (p d : Fin 256) :
    f t.val t.isLt (ix2 p d)
      = 0 + ∑ s ∈ Finset.range (t.val % 16 + 1), addend X W (16 * (t.val / 16) + s) (ix2 p d) := by
  have hN := points
  have ht := t.isLt
  have hb : 16 * (t.val / 16) + t.val % 16 < cfg0.N := by omega
  rw [hfold t hb]
  exact Pipeline.accAt_add_apply (fun n h => sc n h junk) sc (fun _ => 0) (addend X W) (16 * (t.val / 16)) 15
    (fun h i => by
      obtain ⟨p', d', rfl⟩ : ∃ (p' : Fin 256) (d' : Fin 256), i = ix2 p' d' := ⟨i 0, i 1, eq_ix2 i⟩
      rw [addend_ix2 X W _ h]
      exact hreset _ h (by omega) junk p' d')
    (fun n h acc i hlt hle => by
      obtain ⟨p', d', rfl⟩ : ∃ (p' : Fin 256) (d' : Fin 256), i = ix2 p' d' := ⟨i 0, i 1, eq_ix2 i⟩
      rw [addend_ix2 X W n h]
      exact hstep n h (by omega) acc p' d')
    (t.val % 16) (by omega) hb (ix2 p d)

/-- After the last entity tile the sixteen block products are the whole projection entry. -/
theorem blocks_eq_proj (X : Fin cfg0.N → Vec Ideal S256x1280 .f32) (W : Fin cfg0.N → Vec Ideal S1280x256 .f32)
    (x : S2048x20000.Idx → EReal) (w : S256x20000.Idx → EReal)
    (hX : ∀ (t : Fin cfg0.N) (p : Fin 256) (k : Fin 1280),
      X t (ix2 p k) = rowExt x (rowOf t p) (t.val % 16 * 1280 + k.val))
    (hW : ∀ (t : Fin cfg0.N) (k : Fin 1280) (d : Fin 256), W t (ix2 k d) = wrowExt w d (t.val % 16 * 1280 + k.val))
    (t : Fin cfg0.N) (ht : t.val % 16 = 15) (p d : Fin 256) :
    (0 : EReal) + ∑ s ∈ Finset.range (t.val % 16 + 1), addend X W (16 * (t.val / 16) + s) (ix2 p d)
      = Cert.QuatScore.proj x w (rowOf t p) d := by
  have hN := points
  have htl := t.isLt
  rw [zero_add, ht]
  refine Cert.LibPaddedBlocks.sum_blocks_eq_dot (N := 20000) (P := 480) (A := 16) (B := 1280) rfl
    (fun K => x (ix2 (rowOf t p) K)) (fun K => w (ix2 d K)) (rowExt x (rowOf t p)) (wrowExt w d)
    (fun K => by unfold rowExt; rw [dif_pos K.isLt]) (fun j hj => by unfold rowExt; rw [dif_neg (by omega)])
    (fun K => by unfold wrowExt; rw [dif_pos K.isLt]) (fun j hj => by unfold wrowExt; rw [dif_neg (by omega)])
    (fun s => addend X W (16 * (t.val / 16) + s) (ix2 p d)) (fun s hs => ?_)
  have hlt : 16 * (t.val / 16) + s < cfg0.N := by omega
  have e1 : rowOf ⟨16 * (t.val / 16) + s, hlt⟩ p = rowOf t p := Fin.ext (by
    show 256 * ((16 * (t.val / 16) + s) / 16) + p.val = 256 * (t.val / 16) + p.val
    omega)
  have e2 : (16 * (t.val / 16) + s) % 16 = s := by omega
  show addend X W (16 * (t.val / 16) + s) (ix2 p d) = _
  rw [addend_ix2 X W _ hlt]
  unfold blockDot
  refine Finset.sum_congr rfl fun k _ => ?_
  rw [hX, hW, e1]
  show rowExt x (rowOf t p) ((16 * (t.val / 16) + s) % 16 * 1280 + k.val)
    * wrowExt w d ((16 * (t.val / 16) + s) % 16 * 1280 + k.val) = _
  rw [e2]

/-- A fold whose next e steps keep what they are handed is, through those steps, its first value. -/
theorem accAt_kept {α : Type*} {N : ℕ} (a : (n : ℕ) → n < N → α) (g : (n : ℕ) → n < N → α → α) (b e : ℕ)
    (hkeep : ∀ (n : ℕ) (h : n < N) (acc : α), b < n → n ≤ b + e → g n h acc = acc) :
    ∀ (j : ℕ), j ≤ e → ∀ (h : b + j < N), Pipeline.accAt a g b j h = a b (by omega)
  | 0, _, _ => rfl
  | j + 1, hj, h => by
    rw [Pipeline.accAt_succ, hkeep _ h _ (by omega) (by omega)]
    exact accAt_kept a g b e hkeep j (by omega) (Nat.lt_of_succ_lt h)

/-- A relation scratch after point t holds what the first point of t's row tile wrote. -/
theorem kept_apply (f : (n : ℕ) → n < cfg0.N → Vec Ideal S256x256 .f32)
    (sc : (n : ℕ) → n < cfg0.N → Vec Ideal S256x256 .f32 → Vec Ideal S256x256 .f32) (junk : Vec Ideal S256x256 .f32)
    (hfold : ∀ (t : Fin cfg0.N) (hb : 16 * (t.val / 16) + t.val % 16 < cfg0.N),
      f t.val t.isLt = Pipeline.accAt (fun n h => sc n h junk) sc (16 * (t.val / 16)) (t.val % 16) hb)
    (hkeep : ∀ (n : ℕ) (h : n < cfg0.N), ¬n % 16 = 0 → ∀ acc : Vec Ideal S256x256 .f32, sc n h acc = acc)
    (t : Fin cfg0.N) (h0 : 16 * (t.val / 16) < cfg0.N) :
    f t.val t.isLt = sc (16 * (t.val / 16)) h0 junk := by
  have hN := points
  have ht := t.isLt
  have hb : 16 * (t.val / 16) + t.val % 16 < cfg0.N := by omega
  rw [hfold t hb]
  exact accAt_kept (fun n h => sc n h junk) sc (16 * (t.val / 16)) 15
    (fun n h acc hlt hle => hkeep n h (by omega) acc) (t.val % 16) (by omega) hb

end Cert.KernelFold

end
-- ==== Proof.KernelAccum.lean ====
/-
  What the twelve carried scratch buffers hold after a grid point, in terms of the argument arrays.

  Each of the eight accumulators is the generated fold of its per-point step over the entity tiles of the point's row
  tile; the step is "zero plus the tile's block product" at the first tile and "what it held plus the tile's block
  product" at every later one, so after the last tile the accumulator is the whole projection of the head (or tail) row
  on one entity weight matrix.  Each of the four relation parts is written at the first tile and kept afterwards, so it
  is the relation row's projection times the row's scale, whatever the point.
-/
import proofs.«106782_j49649821942232_1_alg».proof.Proof.PatchedKernelIdealValue
import proofs.«106782_j49649821942232_1_alg».proof.Proof.KernelPieces
import proofs.«106782_j49649821942232_1_alg».proof.Proof.KernelFold

set_option maxRecDepth 16384

noncomputable section

open scoped BigOperators

namespace Cert.KernelAccum

open Cert.KernelIdeal Cert.KernelIdeal.Gen Cert.KernelIdeal.Value Idealize.ShloMosaic Idealize.ShloMosaic.ValueIdx
open Idealize.ShloMosaic.TcCoe Idealize.SL.Sem
open Cert.KernelPayloads Cert.KernelInputs Cert.KernelFold Cert.KernelPieces

variable (m : (ℓ : Loc nD τ sig) → Buf (Elt Ideal) ℓ) (c : Dev nD)

/-! ## The eight accumulators -/

/-! ### Accumulator 0 -/

theorem sc0_reset (n : ℕ) (h : n < cfg0.N) (h0 : n % 16 = 0) (acc : Vec Ideal S256x256 .f32) (p d : Fin 256) :
    scAt0_0 m c n h acc (ix2 p d) = 0 + blockDot (blkH m c ⟨n, h⟩) (blkWer m c ⟨n, h⟩) p d := by
  have h1 : ¬n % 16 = 15 := by omega
  unfold scAt0_0
  rw [dif_pos h0, dif_neg h1, pieceA_0_at (F := Ideal) m c ⟨n, h⟩]
  refine (acc0_apply (blkH m c ⟨n, h⟩) (blkWer m c ⟨n, h⟩) _ p d).trans ?_
  rw [reset0_apply]

theorem sc0_step (n : ℕ) (h : n < cfg0.N) (h0 : ¬n % 16 = 0) (acc : Vec Ideal S256x256 .f32) (p d : Fin 256) :
    scAt0_0 m c n h acc (ix2 p d) = acc (ix2 p d) + blockDot (blkH m c ⟨n, h⟩) (blkWer m c ⟨n, h⟩) p d := by
  unfold scAt0_0
  rw [dif_neg h0]
  by_cases h1 : n % 16 = 15
  · rw [dif_pos h1, pieceC_0_at (F := Ideal) m c ⟨n, h⟩]
    exact acc0_apply (blkH m c ⟨n, h⟩) (blkWer m c ⟨n, h⟩) acc p d
  · rw [dif_neg h1, pieceB_0_at (F := Ideal) m c ⟨n, h⟩]
    exact acc0_apply (blkH m c ⟨n, h⟩) (blkWer m c ⟨n, h⟩) acc p d

/-- After the last entity tile, accumulator 0 holds the whole projection. -/
theorem acc0_last (t : Fin cfg0.N) (ht : t.val % 16 = 15) (p d : Fin 256) :
    (outsAt0 (F := Ideal) m c t.val t.isLt).2.1 (ix2 p d)
      = Cert.QuatScore.proj (m ((c : Thread nD τ).loc main_arg0)) (m ((c : Thread nD τ).loc main_arg3)) (rowOf t p) d :=
  (fold_apply (fun n h => (outsAt0 (F := Ideal) m c n h).2.1) (scAt0_0 m c) (VS0_0.read (Elt Ideal) VS0_0.junk)
    (blkH m c) (blkWer m c) (fun t _ => soutsAt0_0_eq m c t) (sc0_reset m c) (sc0_step m c) t p d).trans
  (blocks_eq_proj (blkH m c) (blkWer m c) _ _ (blkH_apply m c) (blkWer_apply m c) t ht p d)

/-! ### Accumulator 1 -/

theorem sc1_reset (n : ℕ) (h : n < cfg0.N) (h0 : n % 16 = 0) (acc : Vec Ideal S256x256 .f32) (p d : Fin 256) :
    scAt0_1 m c n h acc (ix2 p d) = 0 + blockDot (blkH m c ⟨n, h⟩) (blkWei m c ⟨n, h⟩) p d := by
  have h1 : ¬n % 16 = 15 := by omega
  unfold scAt0_1
  rw [dif_pos h0, dif_neg h1, pieceA_1_at (F := Ideal) m c ⟨n, h⟩]
  refine (acc1_apply (blkH m c ⟨n, h⟩) (blkWei m c ⟨n, h⟩) _ p d).trans ?_
  rw [reset1_apply]

theorem sc1_step (n : ℕ) (h : n < cfg0.N) (h0 : ¬n % 16 = 0) (acc : Vec Ideal S256x256 .f32) (p d : Fin 256) :
    scAt0_1 m c n h acc (ix2 p d) = acc (ix2 p d) + blockDot (blkH m c ⟨n, h⟩) (blkWei m c ⟨n, h⟩) p d := by
  unfold scAt0_1
  rw [dif_neg h0]
  by_cases h1 : n % 16 = 15
  · rw [dif_pos h1, pieceC_1_at (F := Ideal) m c ⟨n, h⟩]
    exact acc1_apply (blkH m c ⟨n, h⟩) (blkWei m c ⟨n, h⟩) acc p d
  · rw [dif_neg h1, pieceB_1_at (F := Ideal) m c ⟨n, h⟩]
    exact acc1_apply (blkH m c ⟨n, h⟩) (blkWei m c ⟨n, h⟩) acc p d

/-- After the last entity tile, accumulator 1 holds the whole projection. -/
theorem acc1_last (t : Fin cfg0.N) (ht : t.val % 16 = 15) (p d : Fin 256) :
    (outsAt0 (F := Ideal) m c t.val t.isLt).2.2.1 (ix2 p d)
      = Cert.QuatScore.proj (m ((c : Thread nD τ).loc main_arg0)) (m ((c : Thread nD τ).loc main_arg4)) (rowOf t p) d :=
  (fold_apply (fun n h => (outsAt0 (F := Ideal) m c n h).2.2.1) (scAt0_1 m c) (VS0_1.read (Elt Ideal) VS0_1.junk)
    (blkH m c) (blkWei m c) (fun t _ => soutsAt0_1_eq m c t) (sc1_reset m c) (sc1_step m c) t p d).trans
  (blocks_eq_proj (blkH m c) (blkWei m c) _ _ (blkH_apply m c) (blkWei_apply m c) t ht p d)

/-! ### Accumulator 2 -/

theorem sc2_reset (n : ℕ) (h : n < cfg0.N) (h0 : n % 16 = 0) (acc : Vec Ideal S256x256 .f32) (p d : Fin 256) :
    scAt0_2 m c n h acc (ix2 p d) = 0 + blockDot (blkH m c ⟨n, h⟩) (blkWej m c ⟨n, h⟩) p d := by
  have h1 : ¬n % 16 = 15 := by omega
  unfold scAt0_2
  rw [dif_pos h0, dif_neg h1, pieceA_2_at (F := Ideal) m c ⟨n, h⟩]
  refine (acc2_apply (blkH m c ⟨n, h⟩) (blkWej m c ⟨n, h⟩) _ p d).trans ?_
  rw [reset2_apply]

theorem sc2_step (n : ℕ) (h : n < cfg0.N) (h0 : ¬n % 16 = 0) (acc : Vec Ideal S256x256 .f32) (p d : Fin 256) :
    scAt0_2 m c n h acc (ix2 p d) = acc (ix2 p d) + blockDot (blkH m c ⟨n, h⟩) (blkWej m c ⟨n, h⟩) p d := by
  unfold scAt0_2
  rw [dif_neg h0]
  by_cases h1 : n % 16 = 15
  · rw [dif_pos h1, pieceC_2_at (F := Ideal) m c ⟨n, h⟩]
    exact acc2_apply (blkH m c ⟨n, h⟩) (blkWej m c ⟨n, h⟩) acc p d
  · rw [dif_neg h1, pieceB_2_at (F := Ideal) m c ⟨n, h⟩]
    exact acc2_apply (blkH m c ⟨n, h⟩) (blkWej m c ⟨n, h⟩) acc p d

/-- After the last entity tile, accumulator 2 holds the whole projection. -/
theorem acc2_last (t : Fin cfg0.N) (ht : t.val % 16 = 15) (p d : Fin 256) :
    (outsAt0 (F := Ideal) m c t.val t.isLt).2.2.2.1 (ix2 p d)
      = Cert.QuatScore.proj (m ((c : Thread nD τ).loc main_arg0)) (m ((c : Thread nD τ).loc main_arg5)) (rowOf t p) d :=
  (fold_apply (fun n h => (outsAt0 (F := Ideal) m c n h).2.2.2.1) (scAt0_2 m c) (VS0_2.read (Elt Ideal) VS0_2.junk)
    (blkH m c) (blkWej m c) (fun t _ => soutsAt0_2_eq m c t) (sc2_reset m c) (sc2_step m c) t p d).trans
  (blocks_eq_proj (blkH m c) (blkWej m c) _ _ (blkH_apply m c) (blkWej_apply m c) t ht p d)

/-! ### Accumulator 3 -/

theorem sc3_reset (n : ℕ) (h : n < cfg0.N) (h0 : n % 16 = 0) (acc : Vec Ideal S256x256 .f32) (p d : Fin 256) :
    scAt0_3 m c n h acc (ix2 p d) = 0 + blockDot (blkH m c ⟨n, h⟩) (blkWek m c ⟨n, h⟩) p d := by
  have h1 : ¬n % 16 = 15 := by omega
  unfold scAt0_3
  rw [dif_pos h0, dif_neg h1, pieceA_3_at (F := Ideal) m c ⟨n, h⟩]
  refine (acc3_apply (blkH m c ⟨n, h⟩) (blkWek m c ⟨n, h⟩) _ p d).trans ?_
  rw [reset3_apply]

theorem sc3_step (n : ℕ) (h : n < cfg0.N) (h0 : ¬n % 16 = 0) (acc : Vec Ideal S256x256 .f32) (p d : Fin 256) :
    scAt0_3 m c n h acc (ix2 p d) = acc (ix2 p d) + blockDot (blkH m c ⟨n, h⟩) (blkWek m c ⟨n, h⟩) p d := by
  unfold scAt0_3
  rw [dif_neg h0]
  by_cases h1 : n % 16 = 15
  · rw [dif_pos h1, pieceC_3_at (F := Ideal) m c ⟨n, h⟩]
    exact acc3_apply (blkH m c ⟨n, h⟩) (blkWek m c ⟨n, h⟩) acc p d
  · rw [dif_neg h1, pieceB_3_at (F := Ideal) m c ⟨n, h⟩]
    exact acc3_apply (blkH m c ⟨n, h⟩) (blkWek m c ⟨n, h⟩) acc p d

/-- After the last entity tile, accumulator 3 holds the whole projection. -/
theorem acc3_last (t : Fin cfg0.N) (ht : t.val % 16 = 15) (p d : Fin 256) :
    (outsAt0 (F := Ideal) m c t.val t.isLt).2.2.2.2.1 (ix2 p d)
      = Cert.QuatScore.proj (m ((c : Thread nD τ).loc main_arg0)) (m ((c : Thread nD τ).loc main_arg6)) (rowOf t p) d :=
  (fold_apply (fun n h => (outsAt0 (F := Ideal) m c n h).2.2.2.2.1) (scAt0_3 m c) (VS0_3.read (Elt Ideal) VS0_3.junk)
    (blkH m c) (blkWek m c) (fun t _ => soutsAt0_3_eq m c t) (sc3_reset m c) (sc3_step m c) t p d).trans
  (blocks_eq_proj (blkH m c) (blkWek m c) _ _ (blkH_apply m c) (blkWek_apply m c) t ht p d)

/-! ### Accumulator 4 -/

theorem sc4_reset (n : ℕ) (h : n < cfg0.N) (h0 : n % 16 = 0) (acc : Vec Ideal S256x256 .f32) (p d : Fin 256) :
    scAt0_4 m c n h acc (ix2 p d) = 0 + blockDot (blkT m c ⟨n, h⟩) (blkWer m c ⟨n, h⟩) p d := by
  have h1 : ¬n % 16 = 15 := by omega
  unfold scAt0_4
  rw [dif_pos h0, dif_neg h1, pieceA_4_at (F := Ideal) m c ⟨n, h⟩]
  refine (acc4_apply (blkT m c ⟨n, h⟩) (blkWer m c ⟨n, h⟩) _ p d).trans ?_
  rw [reset4_apply]

theorem sc4_step (n : ℕ) (h : n < cfg0.N) (h0 : ¬n % 16 = 0) (acc : Vec Ideal S256x256 .f32) (p d : Fin 256) :
    scAt0_4 m c n h acc (ix2 p d) = acc (ix2 p d) + blockDot (blkT m c ⟨n, h⟩) (blkWer m c ⟨n, h⟩) p d := by
  unfold scAt0_4
  rw [dif_neg h0]
  by_cases h1 : n % 16 = 15
  · rw [dif_pos h1, pieceC_4_at (F := Ideal) m c ⟨n, h⟩]
    exact acc4_apply (blkT m c ⟨n, h⟩) (blkWer m c ⟨n, h⟩) acc p d
  · rw [dif_neg h1, pieceB_4_at (F := Ideal) m c ⟨n, h⟩]
    exact acc4_apply (blkT m c ⟨n, h⟩) (blkWer m c ⟨n, h⟩) acc p d

/-- After the last entity tile, accumulator 4 holds the whole projection. -/
theorem acc4_last (t : Fin cfg0.N) (ht : t.val % 16 = 15) (p d : Fin 256) :
    (outsAt0 (F := Ideal) m c t.val t.isLt).2.2.2.2.2.1 (ix2 p d)
      = Cert.QuatScore.proj (m ((c : Thread nD τ).loc main_arg1)) (m ((c : Thread nD τ).loc main_arg3)) (rowOf t p) d :=
  (fold_apply (fun n h => (outsAt0 (F := Ideal) m c n h).2.2.2.2.2.1) (scAt0_4 m c) (VS0_4.read (Elt Ideal) VS0_4.junk)
    (blkT m c) (blkWer m c) (fun t _ => soutsAt0_4_eq m c t) (sc4_reset m c) (sc4_step m c) t p d).trans
  (blocks_eq_proj (blkT m c) (blkWer m c) _ _ (blkT_apply m c) (blkWer_apply m c) t ht p d)

/-! ### Accumulator 5 -/

theorem sc5_reset (n : ℕ) (h : n < cfg0.N) (h0 : n % 16 = 0) (acc : Vec Ideal S256x256 .f32) (p d : Fin 256) :
    scAt0_5 m c n h acc (ix2 p d) = 0 + blockDot (blkT m c ⟨n, h⟩) (blkWei m c ⟨n, h⟩) p d := by
  have h1 : ¬n % 16 = 15 := by omega
  unfold scAt0_5
  rw [dif_pos h0, dif_neg h1, pieceA_5_at (F := Ideal) m c ⟨n, h⟩]
  refine (acc5_apply (blkT m c ⟨n, h⟩) (blkWei m c ⟨n, h⟩) _ p d).trans ?_
  rw [reset5_apply]

theorem sc5_step (n : ℕ) (h : n < cfg0.N) (h0 : ¬n % 16 = 0) (acc : Vec Ideal S256x256 .f32) (p d : Fin 256) :
    scAt0_5 m c n h acc (ix2 p d) = acc (ix2 p d) + blockDot (blkT m c ⟨n, h⟩) (blkWei m c ⟨n, h⟩) p d := by
  unfold scAt0_5
  rw [dif_neg h0]
  by_cases h1 : n % 16 = 15
  · rw [dif_pos h1, pieceC_5_at (F := Ideal) m c ⟨n, h⟩]
    exact acc5_apply (blkT m c ⟨n, h⟩) (blkWei m c ⟨n, h⟩) acc p d
  · rw [dif_neg h1, pieceB_5_at (F := Ideal) m c ⟨n, h⟩]
    exact acc5_apply (blkT m c ⟨n, h⟩) (blkWei m c ⟨n, h⟩) acc p d

/-- After the last entity tile, accumulator 5 holds the whole projection. -/
theorem acc5_last (t : Fin cfg0.N) (ht : t.val % 16 = 15) (p d : Fin 256) :
    (outsAt0 (F := Ideal) m c t.val t.isLt).2.2.2.2.2.2.1 (ix2 p d)
      = Cert.QuatScore.proj (m ((c : Thread nD τ).loc main_arg1)) (m ((c : Thread nD τ).loc main_arg4)) (rowOf t p) d :=
  (fold_apply (fun n h => (outsAt0 (F := Ideal) m c n h).2.2.2.2.2.2.1) (scAt0_5 m c) (VS0_5.read (Elt Ideal) VS0_5.junk)
    (blkT m c) (blkWei m c) (fun t _ => soutsAt0_5_eq m c t) (sc5_reset m c) (sc5_step m c) t p d).trans
  (blocks_eq_proj (blkT m c) (blkWei m c) _ _ (blkT_apply m c) (blkWei_apply m c) t ht p d)

/-! ### Accumulator 6 -/

theorem sc6_reset (n : ℕ) (h : n < cfg0.N) (h0 : n % 16 = 0) (acc : Vec Ideal S256x256 .f32) (p d : Fin 256) :
    scAt0_6 m c n h acc (ix2 p d) = 0 + blockDot (blkT m c ⟨n, h⟩) (blkWej m c ⟨n, h⟩) p d := by
  have h1 : ¬n % 16 = 15 := by omega
  unfold scAt0_6
  rw [dif_pos h0, dif_neg h1, pieceA_6_at (F := Ideal) m c ⟨n, h⟩]
  refine (acc6_apply (blkT m c ⟨n, h⟩) (blkWej m c ⟨n, h⟩) _ p d).trans ?_
  rw [reset6_apply]

theorem sc6_step (n : ℕ) (h : n < cfg0.N) (h0 : ¬n % 16 = 0) (acc : Vec Ideal S256x256 .f32) (p d : Fin 256) :
    scAt0_6 m c n h acc (ix2 p d) = acc (ix2 p d) + blockDot (blkT m c ⟨n, h⟩) (blkWej m c ⟨n, h⟩) p d := by
  unfold scAt0_6
  rw [dif_neg h0]
  by_cases h1 : n % 16 = 15
  · rw [dif_pos h1, pieceC_6_at (F := Ideal) m c ⟨n, h⟩]
    exact acc6_apply (blkT m c ⟨n, h⟩) (blkWej m c ⟨n, h⟩) acc p d
  · rw [dif_neg h1, pieceB_6_at (F := Ideal) m c ⟨n, h⟩]
    exact acc6_apply (blkT m c ⟨n, h⟩) (blkWej m c ⟨n, h⟩) acc p d

/-- After the last entity tile, accumulator 6 holds the whole projection. -/
theorem acc6_last (t : Fin cfg0.N) (ht : t.val % 16 = 15) (p d : Fin 256) :
    (outsAt0 (F := Ideal) m c t.val t.isLt).2.2.2.2.2.2.2.1 (ix2 p d)
      = Cert.QuatScore.proj (m ((c : Thread nD τ).loc main_arg1)) (m ((c : Thread nD τ).loc main_arg5)) (rowOf t p) d :=
  (fold_apply (fun n h => (outsAt0 (F := Ideal) m c n h).2.2.2.2.2.2.2.1) (scAt0_6 m c) (VS0_6.read (Elt Ideal) VS0_6.junk)
    (blkT m c) (blkWej m c) (fun t _ => soutsAt0_6_eq m c t) (sc6_reset m c) (sc6_step m c) t p d).trans
  (blocks_eq_proj (blkT m c) (blkWej m c) _ _ (blkT_apply m c) (blkWej_apply m c) t ht p d)

/-! ### Accumulator 7 -/

theorem sc7_reset (n : ℕ) (h : n < cfg0.N) (h0 : n % 16 = 0) (acc : Vec Ideal S256x256 .f32) (p d : Fin 256) :
    scAt0_7 m c n h acc (ix2 p d) = 0 + blockDot (blkT m c ⟨n, h⟩) (blkWek m c ⟨n, h⟩) p d := by
  have h1 : ¬n % 16 = 15 := by omega
  unfold scAt0_7
  rw [dif_pos h0, dif_neg h1, pieceA_7_at (F := Ideal) m c ⟨n, h⟩]
  refine (acc7_apply (blkT m c ⟨n, h⟩) (blkWek m c ⟨n, h⟩) _ p d).trans ?_
  rw [reset7_apply]

theorem sc7_step (n : ℕ) (h : n < cfg0.N) (h0 : ¬n % 16 = 0) (acc : Vec Ideal S256x256 .f32) (p d : Fin 256) :
    scAt0_7 m c n h acc (ix2 p d) = acc (ix2 p d) + blockDot (blkT m c ⟨n, h⟩) (blkWek m c ⟨n, h⟩) p d := by
  unfold scAt0_7
  rw [dif_neg h0]
  by_cases h1 : n % 16 = 15
  · rw [dif_pos h1, pieceC_7_at (F := Ideal) m c ⟨n, h⟩]
    exact acc7_apply (blkT m c ⟨n, h⟩) (blkWek m c ⟨n, h⟩) acc p d
  · rw [dif_neg h1, pieceB_7_at (F := Ideal) m c ⟨n, h⟩]
    exact acc7_apply (blkT m c ⟨n, h⟩) (blkWek m c ⟨n, h⟩) acc p d

/-- After the last entity tile, accumulator 7 holds the whole projection. -/
theorem acc7_last (t : Fin cfg0.N) (ht : t.val % 16 = 15) (p d : Fin 256) :
    (outsAt0 (F := Ideal) m c t.val t.isLt).2.2.2.2.2.2.2.2.1 (ix2 p d)
      = Cert.QuatScore.proj (m ((c : Thread nD τ).loc main_arg1)) (m ((c : Thread nD τ).loc main_arg6)) (rowOf t p) d :=
  (fold_apply (fun n h => (outsAt0 (F := Ideal) m c n h).2.2.2.2.2.2.2.2.1) (scAt0_7 m c) (VS0_7.read (Elt Ideal) VS0_7.junk)
    (blkT m c) (blkWek m c) (fun t _ => soutsAt0_7_eq m c t) (sc7_reset m c) (sc7_step m c) t p d).trans
  (blocks_eq_proj (blkT m c) (blkWek m c) _ _ (blkT_apply m c) (blkWek_apply m c) t ht p d)

/-! ## The relation quaternion -/

/-- The first point of t's row tile is a point of the grid. -/
theorem firstPoint_lt (t : Fin cfg0.N) : 16 * (t.val / 16) < cfg0.N := by
  have hN := points
  have ht := t.isLt
  omega

/-- The first point of t's row tile stages the same rows as t. -/
theorem rowOf_first (t : Fin cfg0.N) (h0 : 16 * (t.val / 16) < cfg0.N) (p : Fin 256) :
    rowOf ⟨16 * (t.val / 16), h0⟩ p = rowOf t p :=
  Fin.ext (by
    show 256 * (16 * (t.val / 16) / 16) + p.val = 256 * (t.val / 16) + p.val
    omega)

/-- A relation product at the row tile's first point is the relation row's projection. -/
theorem relDot_first (t : Fin cfg0.N) (h0 : 16 * (t.val / 16) < cfg0.N)
    (Wb : Dev nD → Fin cfg0.N → Vec Ideal S500x256 .f32) (w : S256x500.Idx → EReal)
    (hW : ∀ (t : Fin cfg0.N) (k : Fin 500) (d : Fin 256), Wb c t (ix2 k d) = w (ix2 d k)) (p d : Fin 256) :
    relDot (blkR m c ⟨16 * (t.val / 16), h0⟩) (Wb c ⟨16 * (t.val / 16), h0⟩) p d
      = Cert.QuatScore.proj (m ((c : Thread nD τ).loc main_arg2)) w (rowOf t p) d := by
  unfold relDot Cert.QuatScore.proj
  refine Finset.sum_congr rfl fun k _ => ?_
  rw [blkR_apply, hW, rowOf_first t h0 p]

/-- The block's scale at the row tile's first point is the relation row's scale. -/
theorem scale_first (t : Fin cfg0.N) (h0 : 16 * (t.val / 16) < cfg0.N) (p : Fin 256) :
    blockScale (blkR m c ⟨16 * (t.val / 16), h0⟩) (blkWrr m c ⟨16 * (t.val / 16), h0⟩) (blkWri m c ⟨16 * (t.val / 16), h0⟩)
        (blkWrj m c ⟨16 * (t.val / 16), h0⟩) (blkWrk m c ⟨16 * (t.val / 16), h0⟩) p
      = Cert.QuatScore.scale (m ((c : Thread nD τ).loc main_arg2)) (m ((c : Thread nD τ).loc main_arg7)) (m ((c : Thread nD τ).loc main_arg8)) (m ((c : Thread nD τ).loc main_arg9)) (m ((c : Thread nD τ).loc main_arg10)) (rowOf t p) := by
  unfold blockScale Cert.QuatScore.scale
  refine congrArg Ideal.sqrt (Finset.sum_congr rfl fun d _ => ?_)
  rw [relDot_first m c t h0 (blkWrr m) _ (blkWrr_apply m c) p d, relDot_first m c t h0 (blkWri m) _ (blkWri_apply m c) p d,
    relDot_first m c t h0 (blkWrj m) _ (blkWrj_apply m c) p d, relDot_first m c t h0 (blkWrk m) _ (blkWrk_apply m c) p d]

/-! ### Relation part 0 -/

theorem sc8_first (n : ℕ) (h : n < cfg0.N) (h0 : n % 16 = 0) (acc : Vec Ideal S256x256 .f32) (p d : Fin 256) :
    scAt0_8 m c n h acc (ix2 p d)
      = blockScale (blkR m c ⟨n, h⟩) (blkWrr m c ⟨n, h⟩) (blkWri m c ⟨n, h⟩) (blkWrj m c ⟨n, h⟩) (blkWrk m c ⟨n, h⟩) p
        * relDot (blkR m c ⟨n, h⟩) (blkWrr m c ⟨n, h⟩) p d := by
  have h1 : ¬n % 16 = 15 := by omega
  unfold scAt0_8
  rw [dif_pos h0, dif_neg h1, pieceA_8_at (F := Ideal) m c ⟨n, h⟩]
  exact relStore0_apply (blkR m c ⟨n, h⟩) (blkWrr m c ⟨n, h⟩) (blkWri m c ⟨n, h⟩) (blkWrj m c ⟨n, h⟩) (blkWrk m c ⟨n, h⟩) p d

theorem sc8_keep (n : ℕ) (h : n < cfg0.N) (h0 : ¬n % 16 = 0) (acc : Vec Ideal S256x256 .f32) :
    scAt0_8 m c n h acc = acc := by
  unfold scAt0_8
  rw [dif_neg h0]
  by_cases h1 : n % 16 = 15
  · rw [dif_pos h1]; rfl
  · rw [dif_neg h1]; rfl

/-- After any point of a row tile, relation part 0 is the scaled projection of the relation row. -/
theorem rel0_at (t : Fin cfg0.N) (p d : Fin 256) :
    (outsAt0 (F := Ideal) m c t.val t.isLt).2.2.2.2.2.2.2.2.2.1 (ix2 p d)
      = Cert.QuatScore.scale (m ((c : Thread nD τ).loc main_arg2)) (m ((c : Thread nD τ).loc main_arg7)) (m ((c : Thread nD τ).loc main_arg8)) (m ((c : Thread nD τ).loc main_arg9)) (m ((c : Thread nD τ).loc main_arg10)) (rowOf t p)
        * Cert.QuatScore.proj (m ((c : Thread nD τ).loc main_arg2)) (m ((c : Thread nD τ).loc main_arg7)) (rowOf t p) d := by
  have h0 : 16 * (t.val / 16) < cfg0.N := firstPoint_lt t
  rw [kept_apply (fun n h => (outsAt0 (F := Ideal) m c n h).2.2.2.2.2.2.2.2.2.1) (scAt0_8 m c) (VS0_8.read (Elt Ideal) VS0_8.junk)
    (fun t _ => soutsAt0_8_eq m c t) (sc8_keep m c) t h0,
    sc8_first m c _ h0 (by omega) _ p d, scale_first m c t h0 p, relDot_first m c t h0 (blkWrr m) (m ((c : Thread nD τ).loc main_arg7)) (blkWrr_apply m c) p d]

/-! ### Relation part 1 -/

theorem sc9_first (n : ℕ) (h : n < cfg0.N) (h0 : n % 16 = 0) (acc : Vec Ideal S256x256 .f32) (p d : Fin 256) :
    scAt0_9 m c n h acc (ix2 p d)
      = blockScale (blkR m c ⟨n, h⟩) (blkWrr m c ⟨n, h⟩) (blkWri m c ⟨n, h⟩) (blkWrj m c ⟨n, h⟩) (blkWrk m c ⟨n, h⟩) p
        * relDot (blkR m c ⟨n, h⟩) (blkWri m c ⟨n, h⟩) p d := by
  have h1 : ¬n % 16 = 15 := by omega
  unfold scAt0_9
  rw [dif_pos h0, dif_neg h1, pieceA_9_at (F := Ideal) m c ⟨n, h⟩]
  exact relStore1_apply (blkR m c ⟨n, h⟩) (blkWrr m c ⟨n, h⟩) (blkWri m c ⟨n, h⟩) (blkWrj m c ⟨n, h⟩) (blkWrk m c ⟨n, h⟩) p d

theorem sc9_keep (n : ℕ) (h : n < cfg0.N) (h0 : ¬n % 16 = 0) (acc : Vec Ideal S256x256 .f32) :
    scAt0_9 m c n h acc = acc := by
  unfold scAt0_9
  rw [dif_neg h0]
  by_cases h1 : n % 16 = 15
  · rw [dif_pos h1]; rfl
  · rw [dif_neg h1]; rfl

/-- After any point of a row tile, relation part 1 is the scaled projection of the relation row. -/
theorem rel1_at (t : Fin cfg0.N) (p d : Fin 256) :
    (outsAt0 (F := Ideal) m c t.val t.isLt).2.2.2.2.2.2.2.2.2.2.1 (ix2 p d)
      = Cert.QuatScore.scale (m ((c : Thread nD τ).loc main_arg2)) (m ((c : Thread nD τ).loc main_arg7)) (m ((c : Thread nD τ).loc main_arg8)) (m ((c : Thread nD τ).loc main_arg9)) (m ((c : Thread nD τ).loc main_arg10)) (rowOf t p)
        * Cert.QuatScore.proj (m ((c : Thread nD τ).loc main_arg2)) (m ((c : Thread nD τ).loc main_arg8)) (rowOf t p) d := by
  have h0 : 16 * (t.val / 16) < cfg0.N := firstPoint_lt t
  rw [kept_apply (fun n h => (outsAt0 (F := Ideal) m c n h).2.2.2.2.2.2.2.2.2.2.1) (scAt0_9 m c) (VS0_9.read (Elt Ideal) VS0_9.junk)
    (fun t _ => soutsAt0_9_eq m c t) (sc9_keep m c) t h0,
    sc9_first m c _ h0 (by omega) _ p d, scale_first m c t h0 p, relDot_first m c t h0 (blkWri m) (m ((c : Thread nD τ).loc main_arg8)) (blkWri_apply m c) p d]

/-! ### Relation part 2 -/

theorem sc10_first (n : ℕ) (h : n < cfg0.N) (h0 : n % 16 = 0) (acc : Vec Ideal S256x256 .f32) (p d : Fin 256) :
    scAt0_10 m c n h acc (ix2 p d)
      = blockScale (blkR m c ⟨n, h⟩) (blkWrr m c ⟨n, h⟩) (blkWri m c ⟨n, h⟩) (blkWrj m c ⟨n, h⟩) (blkWrk m c ⟨n, h⟩) p
        * relDot (blkR m c ⟨n, h⟩) (blkWrj m c ⟨n, h⟩) p d := by
  have h1 : ¬n % 16 = 15 := by omega
  unfold scAt0_10
  rw [dif_pos h0, dif_neg h1, pieceA_10_at (F := Ideal) m c ⟨n, h⟩]
  exact relStore2_apply (blkR m c ⟨n, h⟩) (blkWrr m c ⟨n, h⟩) (blkWri m c ⟨n, h⟩) (blkWrj m c ⟨n, h⟩) (blkWrk m c ⟨n, h⟩) p d

theorem sc10_keep (n : ℕ) (h : n < cfg0.N) (h0 : ¬n % 16 = 0) (acc : Vec Ideal S256x256 .f32) :
    scAt0_10 m c n h acc = acc := by
  unfold scAt0_10
  rw [dif_neg h0]
  by_cases h1 : n % 16 = 15
  · rw [dif_pos h1]; rfl
  · rw [dif_neg h1]; rfl

/-- After any point of a row tile, relation part 2 is the scaled projection of the relation row. -/
theorem rel2_at (t : Fin cfg0.N) (p d : Fin 256) :
    (outsAt0 (F := Ideal) m c t.val t.isLt).2.2.2.2.2.2.2.2.2.2.2.1 (ix2 p d)
      = Cert.QuatScore.scale (m ((c : Thread nD τ).loc main_arg2)) (m ((c : Thread nD τ).loc main_arg7)) (m ((c : Thread nD τ).loc main_arg8)) (m ((c : Thread nD τ).loc main_arg9)) (m ((c : Thread nD τ).loc main_arg10)) (rowOf t p)
        * Cert.QuatScore.proj (m ((c : Thread nD τ).loc main_arg2)) (m ((c : Thread nD τ).loc main_arg9)) (rowOf t p) d := by
  have h0 : 16 * (t.val / 16) < cfg0.N := firstPoint_lt t
  rw [kept_apply (fun n h => (outsAt0 (F := Ideal) m c n h).2.2.2.2.2.2.2.2.2.2.2.1) (scAt0_10 m c) (VS0_10.read (Elt Ideal) VS0_10.junk)
    (fun t _ => soutsAt0_10_eq m c t) (sc10_keep m c) t h0,
    sc10_first m c _ h0 (by omega) _ p d, scale_first m c t h0 p, relDot_first m c t h0 (blkWrj m) (m ((c : Thread nD τ).loc main_arg9)) (blkWrj_apply m c) p d]

/-! ### Relation part 3 -/

theorem sc11_first (n : ℕ) (h : n < cfg0.N) (h0 : n % 16 = 0) (acc : Vec Ideal S256x256 .f32) (p d : Fin 256) :
    scAt0_11 m c n h acc (ix2 p d)
      = blockScale (blkR m c ⟨n, h⟩) (blkWrr m c ⟨n, h⟩) (blkWri m c ⟨n, h⟩) (blkWrj m c ⟨n, h⟩) (blkWrk m c ⟨n, h⟩) p
        * relDot (blkR m c ⟨n, h⟩) (blkWrk m c ⟨n, h⟩) p d := by
  have h1 : ¬n % 16 = 15 := by omega
  unfold scAt0_11
  rw [dif_pos h0, dif_neg h1, pieceA_11_at (F := Ideal) m c ⟨n, h⟩]
  exact relStore3_apply (blkR m c ⟨n, h⟩) (blkWrr m c ⟨n, h⟩) (blkWri m c ⟨n, h⟩) (blkWrj m c ⟨n, h⟩) (blkWrk m c ⟨n, h⟩) p d

theorem sc11_keep (n : ℕ) (h : n < cfg0.N) (h0 : ¬n % 16 = 0) (acc : Vec Ideal S256x256 .f32) :
    scAt0_11 m c n h acc = acc := by
  unfold scAt0_11
  rw [dif_neg h0]
  by_cases h1 : n % 16 = 15
  · rw [dif_pos h1]; rfl
  · rw [dif_neg h1]; rfl

/-- After any point of a row tile, relation part 3 is the scaled projection of the relation row. -/
theorem rel3_at (t : Fin cfg0.N) (p d : Fin 256) :
    (outsAt0 (F := Ideal) m c t.val t.isLt).2.2.2.2.2.2.2.2.2.2.2.2 (ix2 p d)
      = Cert.QuatScore.scale (m ((c : Thread nD τ).loc main_arg2)) (m ((c : Thread nD τ).loc main_arg7)) (m ((c : Thread nD τ).loc main_arg8)) (m ((c : Thread nD τ).loc main_arg9)) (m ((c : Thread nD τ).loc main_arg10)) (rowOf t p)
        * Cert.QuatScore.proj (m ((c : Thread nD τ).loc main_arg2)) (m ((c : Thread nD τ).loc main_arg10)) (rowOf t p) d := by
  have h0 : 16 * (t.val / 16) < cfg0.N := firstPoint_lt t
  rw [kept_apply (fun n h => (outsAt0 (F := Ideal) m c n h).2.2.2.2.2.2.2.2.2.2.2.2) (scAt0_11 m c) (VS0_11.read (Elt Ideal) VS0_11.junk)
    (fun t _ => soutsAt0_11_eq m c t) (sc11_keep m c) t h0,
    sc11_first m c _ h0 (by omega) _ p d, scale_first m c t h0 p, relDot_first m c t h0 (blkWrk m) (m ((c : Thread nD τ).loc main_arg10)) (blkWrk_apply m c) p d]

end Cert.KernelAccum

end
-- ==== Proof.KernelFinal.lean ====
/-
  From the output block at a row tile's last point to the whole result column.

  At the last entity tile of row tile q the body writes, at row p of the output block, the logistic function of the
  feature sum of the Hamilton product dotted with T, computed from the twelve scratch buffers as they stand after that
  point: the eight accumulators then hold the whole projections of rows 256·q + p of the head and tail arrays, and the
  four relation parts hold the scaled projections of the relation row.  So the block written back at that point is the
  restriction of the specification's result column to rows 256·q … 256·q + 255.  The output window is written back only
  at those eight points, their blocks tile the [2048, 1] column, and therefore the column after the run is the
  specification's result.
-/
import proofs.«106782_j49649821942232_1_alg».proof.Proof.KernelAccum

set_option maxRecDepth 16384

noncomputable section

open scoped BigOperators

namespace Cert.KernelFinal

open Cert.KernelIdeal Cert.KernelIdeal.Gen Cert.KernelIdeal.Value Idealize.ShloMosaic Idealize.ShloMosaic.ValueIdx
open Idealize.ShloMosaic.TcCoe Idealize.SL.Sem
open Cert.KernelPayloads Cert.KernelInputs Cert.KernelFold Cert.KernelPieces Cert.KernelAccum

variable (m : (ℓ : Loc nD τ sig) → Buf (Elt Ideal) ℓ) (c : Dev nD)

/-- The specification's result column of the argument arrays as launched. -/
abbrev res : S2048x1.Idx → EReal :=
  Cert.QuatScore.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- At a last entity tile the output block is the logistic function of the feature sum over the scratch buffers as
    that point leaves them. -/
theorem out_of_scratch (t : Fin cfg0.N) (h0 : ¬t.val % 16 = 0) (h1 : t.val % 16 = 15) (p : Fin 256) (u : Fin 1) :
    (outsAt0 (F := Ideal) m c t.val t.isLt).1 (ix2 p u)
      = Ideal.logistic (∑ d : Fin 256, Cert.QuatScore.term ((outsAt0 (F := Ideal) m c t.val t.isLt).2.1 (ix2 p d))
          ((outsAt0 (F := Ideal) m c t.val t.isLt).2.2.1 (ix2 p d))
          ((outsAt0 (F := Ideal) m c t.val t.isLt).2.2.2.1 (ix2 p d))
          ((outsAt0 (F := Ideal) m c t.val t.isLt).2.2.2.2.1 (ix2 p d))
          ((outsAt0 (F := Ideal) m c t.val t.isLt).2.2.2.2.2.1 (ix2 p d))
          ((outsAt0 (F := Ideal) m c t.val t.isLt).2.2.2.2.2.2.1 (ix2 p d))
          ((outsAt0 (F := Ideal) m c t.val t.isLt).2.2.2.2.2.2.2.1 (ix2 p d))
          ((outsAt0 (F := Ideal) m c t.val t.isLt).2.2.2.2.2.2.2.2.1 (ix2 p d))
          ((outsAt0 (F := Ideal) m c t.val t.isLt).2.2.2.2.2.2.2.2.2.1 (ix2 p d))
          ((outsAt0 (F := Ideal) m c t.val t.isLt).2.2.2.2.2.2.2.2.2.2.1 (ix2 p d))
          ((outsAt0 (F := Ideal) m c t.val t.isLt).2.2.2.2.2.2.2.2.2.2.2.1 (ix2 p d))
          ((outsAt0 (F := Ideal) m c t.val t.isLt).2.2.2.2.2.2.2.2.2.2.2.2 (ix2 p d))) := by
  rw [outsAt0_C m c t h0 h1]
  dsimp only
  rw [pieceC_out_at (F := Ideal) m c t, pieceC_0_at (F := Ideal) m c t, pieceC_1_at (F := Ideal) m c t, pieceC_2_at (F := Ideal) m c t, pieceC_3_at (F := Ideal) m c t, pieceC_4_at (F := Ideal) m c t, pieceC_5_at (F := Ideal) m c t, pieceC_6_at (F := Ideal) m c t, pieceC_7_at (F := Ideal) m c t]
  simp only [sout0_C_8, sout0_C_9, sout0_C_10, sout0_C_11]
  exact out_apply _ _ _ _ _ _ _ _ _ _ _ _ p u

/-- … which is the logistic function of the specification's score of the block's array row. -/
theorem out_last_at (t : Fin cfg0.N) (h1 : t.val % 16 = 15) (p : Fin 256) (u : Fin 1) :
    (outsAt0 (F := Ideal) m c t.val t.isLt).1 (ix2 p u)
      = Ideal.logistic (Cert.QuatScore.score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (rowOf t p)) := by
  rw [out_of_scratch m c t (by omega) h1 p u]
  unfold Cert.QuatScore.score
  refine congrArg Ideal.logistic (Finset.sum_congr rfl fun d _ => ?_)
  rw [acc0_last m c t h1 p d, acc1_last m c t h1 p d, acc2_last m c t h1 p d, acc3_last m c t h1 p d, acc4_last m c t h1 p d, acc5_last m c t h1 p d, acc6_last m c t h1 p d, acc7_last m c t h1 p d,
    rel0_at m c t p d, rel1_at m c t p d, rel2_at m c t p d, rel3_at m c t p d]

/-- The same at any index of the output block. -/
theorem out_last (t : Fin cfg0.N) (h1 : t.val % 16 = 15) (y : S256x1.Idx) :
    (outsAt0 (F := Ideal) m c t.val t.isLt).1 y
      = Ideal.logistic (Cert.QuatScore.score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (rowOf t ⟨(y 0).val, (y 0).isLt⟩)) := by
  obtain ⟨p, u, rfl⟩ : ∃ (p : Fin 256) (u : Fin 1), y = ix2 p u := ⟨y 0, y 1, eq_ix2 y⟩
  exact out_last_at m c t h1 p u

/-- The output window's block index at point t: row tile t / 16, the one column. -/
theorem outIndex : ∀ t : Fin cfg0.N, win0_11.index t (0 : Fin 2) = t.val / 16 ∧ win0_11.index t (1 : Fin 2) = 0 :=
  (by decide +kernel : ∀ t : Fin grid0.N, win0_11.index t (0 : Fin 2) = t.val / 16 ∧ win0_11.index t (1 : Fin 2) = 0)

/-- Every row tile has its last point. -/
theorem lastPoint : ∀ q : Fin 8, ∃ t : Fin cfg0.N, t.val % 16 = 15 ∧ t.val / 16 = q.val :=
  (by decide +kernel : ∀ q : Fin 8, ∃ t : Fin grid0.N, t.val % 16 = 15 ∧ t.val / 16 = q.val)

/-- The part of a block's contents that point t writes back, at an index of the written part. -/
theorem cut_apply (t : Fin cfg0.N) (X : Vec Ideal S256x1 .f32) (j : ((cfg0.win 11).xblock (grid0.coords t)).Idx) :
    (cfg0.win 11).cut (grid0.coords t) X j = X ((cfg0.win 11).xinj (grid0.coords t) j) := rfl

/-- Point t's block of any column, at an index of the block: the column at the index the block places it at. -/
theorem readBlock_apply (t : Fin cfg0.N) (G : S2048x1.Idx → EReal) (j : ((cfg0.win 11).xblock (grid0.coords t)).Idx) :
    ((cfg0.win 11).blk t).view.read (Elt Ideal) G j = G (((cfg0.win 11).blk t).view.emb j) := rfl

/-- A column that holds, at every row of the block, the logistic function of the score of the block's array row is
    the block of the result column at point t. -/
theorem block_eq (t : Fin cfg0.N) (X : Vec Ideal S256x1 .f32)
    (hX : ∀ y : S256x1.Idx, X y = Ideal.logistic (Cert.QuatScore.score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (rowOf t ⟨(y 0).val, (y 0).isLt⟩))) :
    (cfg0.win 11).cut (grid0.coords t) X = ((cfg0.win 11).blk t).view.read (Elt Ideal) (res m c) := by
  funext j
  refine (cut_apply t X j).trans (Eq.trans ?_ (readBlock_apply t (res m c) j).symm)
  rw [hX]
  unfold res Cert.QuatScore.result
  refine congrArg (fun b => Ideal.logistic (Cert.QuatScore.score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b)) (Fin.ext ?_)
  show 256 * (t.val / 16) + (j 0).val = win0_11.index t (0 : Fin 2) * 256 + 1 * (j 0).val
  rw [(outIndex t).1]
  omega

/-- What a writing-back point writes back is its block of the result column. -/
theorem flushed_eq (t : Fin cfg0.N) (hf : (cfg0.win 11).flush t = true) :
    (dats (F := Ideal) m 0 c).flushed 11 t = ((cfg0.win 11).blk t).view.read (Elt Ideal) (res m c) := by
  have h1 : t.val % 16 = 15 := (flush0_11 t).mp hf
  rw [flushed11]
  exact block_eq m c t _ (out_last m c t h1)

/-- An index of the result column is in point t's block iff each coordinate is in the block's range. -/
theorem mem_blk (t : Fin cfg0.N) (i : S2048x1.Idx) :
    i ∈ ((cfg0.win 11).blk t).view.set ↔ ∀ a : Fin 2, win0_11.index t a * S256x1.size a ≤ (i a).val
      ∧ (i a).val < win0_11.index t a * S256x1.size a + S256x1.size a := by
  show i ∈ ((View.whole main_v14).slice (win0_11.rect t)).set ↔ _
  rw [View.set_slice_whole, Rect.mem_set_unit]
  exact Iff.rfl

/-- Every row of the result column is in the block of its row tile's last point. -/
theorem cover (i : S2048x1.Idx) :
    ∃ t : Fin cfg0.N, (cfg0.win 11).flush t = true ∧ i ∈ ((cfg0.win 11).blk t).view.set := by
  have hi0 : (i 0).val < 2048 := (i 0).isLt
  have hi1 : (i 1).val < 1 := (i 1).isLt
  obtain ⟨t, ht15, htq⟩ := lastPoint ⟨(i 0).val / 256, by omega⟩
  have htq' : t.val / 16 = (i 0).val / 256 := htq
  obtain ⟨q0, q1⟩ := outIndex t
  refine ⟨t, (flush0_11 t).mpr ht15, ?_⟩
  rw [mem_blk]
  intro a
  match a with
  | ⟨0, _⟩ =>
    show win0_11.index t (0 : Fin 2) * 256 ≤ (i 0).val ∧ (i 0).val < win0_11.index t (0 : Fin 2) * 256 + 256
    omega
  | ⟨1, _⟩ =>
    show win0_11.index t (1 : Fin 2) * 1 ≤ (i 1).val ∧ (i 1).val < win0_11.index t (1 : Fin 2) * 1 + 1
    omega

/-- The result column after the run is the specification's. -/
theorem final : (dats (F := Ideal) m 0 c).arrAt 11 cfg0.N = res m c :=
  (dats (F := Ideal) m 0 c).arrAt_eq_of_cover 11 (res m c) (fun t hf => flushed_eq m c t hf) cover

/-- The idealized kernel's run: the result column ends at the specification's result of the argument arrays, and the
    argument arrays end as launched. -/
theorem run (ρ : Dev nD → PrngReg) :
    θ_run defs (onTc (τ := τ) (main (F := Ideal))) ⟨m, fun _ => 0, ρ⟩ fun r => ∀ c : Dev nD,
      r.2.mem ((c : Thread nD τ).loc main_v14) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelFinal

end
-- ==== Proof.LibSpelledLogistic.lean ====
/-
  The logistic function spelled out on the extended reals. A program that writes σ(z) as 1 / (1 + e^(−z)) with the
  float literal 1.0 for both ones computes the logistic function of z at every extended real, the infinities included:
  the literal denotes the number one, and the logistic function is by definition that quotient.
-/
import Idealize.ShloMosaic.PureOps.Ideal

noncomputable section

namespace Cert.LibSpelledLogistic

open Idealize.ShloMosaic

/-- The float word of 1.0 denotes the real number one. -/
theorem word_one : Ideal.ofBits .f32 0x3F800000#32 = 1 := by
  simp [Ideal.ofBits, Ideal.ieee, -EReal.coe_mul]; norm_num

/-- The quotient 1 / (1 + e^(−z)) spelled with the word of 1.0 twice is the logistic function of z. -/
theorem spelled_logistic (z : EReal) :
    Ideal.div (Ideal.ofBits .f32 0x3F800000#32) (Ideal.ofBits .f32 0x3F800000#32 + Ideal.exp (-z)) = Ideal.logistic z := by
  rw [word_one]; rfl

end Cert.LibSpelledLogistic

end
-- ==== Proof.RefScore.lean ====
/-
  The reference program computes the quaternion link score.

  Read one operation at a time, the reference forms twelve projections x · Wᵀ, the row sum of the squared parts of the
  relation quaternion and its square root, the scaled relation quaternion, the four parts of the Hamilton product
  H ⊗ R, their dot with T, the sum over the features, and 1 / (1 + e^(−z)) of that sum. Each stage, read at an index
  (b, d) or at a row b, is the corresponding quantity of the specification; the stages are chained in the order the
  program computes them.
-/
import proofs.«106782_j49649821942232_1_alg».proof.Proof.Gen.ReferenceIdeal.Read
import proofs.«106782_j49649821942232_1_alg».proof.Proof.QuatScore
import proofs.«106782_j49649821942232_1_alg».proof.Proof.LibSpelledLogistic

noncomputable section

open scoped BigOperators

namespace Cert.RefScore

open Idealize.ShloMosaic Idealize.ShloMosaic.ValueIdx Cert.ReferenceIdeal Cert.ReferenceIdeal.Read
open Cert.QuatScore (proj term sq4 scale score result)

/-- The argument arrays: entity rows and relation rows, entity weights and relation weights. -/
abbrev ERows : Type := (⟨S2048x20000, .f32⟩ : BufTy).Contents (Elt Ideal)
abbrev RRows : Type := (⟨S2048x500, .f32⟩ : BufTy).Contents (Elt Ideal)
abbrev EWts : Type := (⟨S256x20000, .f32⟩ : BufTy).Contents (Elt Ideal)
abbrev RWts : Type := (⟨S256x500, .f32⟩ : BufTy).Contents (Elt Ideal)

/-- Two rank-2 indices with the same two coordinates are equal. -/
local macro "coords" : tactic =>
  `(tactic| exact funext fun a => Fin.ext (by match a with | ⟨0, _⟩ => rfl | ⟨1, _⟩ => rfl))

/-! ## The twelve projections

Each product x · Wᵀ contracts the second axis of x with the first axis of the transposed weights; the transpose swaps
the weights' coordinates back, so the entry at (b, d) is ∑ₖ x(b, k) · W(d, k). -/

theorem head_r (x0 : ERows) (x3 : EWts) (b : Fin 2048) (d : Fin 256) :
    val_main_v1 (F := Ideal) x0 x3 (ix2 b d) = proj x0 x3 b d := by
  rw [val_main_v1_apply]; unfold QuatScore.proj
  refine Finset.sum_congr rfl fun k _ => ?_
  rw [val_main_v0_apply]
  have el : lidx_main_v1 (ix2 b d) k = ix2 b k := by coords
  have er : idx_main_v0 (ridx_main_v1 (ix2 b d) k) = ix2 d k := by coords
  rw [el, er]

theorem head_i (x0 : ERows) (x4 : EWts) (b : Fin 2048) (d : Fin 256) :
    val_main_v3 (F := Ideal) x0 x4 (ix2 b d) = proj x0 x4 b d := by
  rw [val_main_v3_apply]; unfold QuatScore.proj
  refine Finset.sum_congr rfl fun k _ => ?_
  rw [val_main_v2_apply]
  have el : lidx_main_v3 (ix2 b d) k = ix2 b k := by coords
  have er : idx_main_v2 (ridx_main_v3 (ix2 b d) k) = ix2 d k := by coords
  rw [el, er]

theorem head_j (x0 : ERows) (x5 : EWts) (b : Fin 2048) (d : Fin 256) :
    val_main_v5 (F := Ideal) x0 x5 (ix2 b d) = proj x0 x5 b d := by
  rw [val_main_v5_apply]; unfold QuatScore.proj
  refine Finset.sum_congr rfl fun k _ => ?_
  rw [val_main_v4_apply]
  have el : lidx_main_v5 (ix2 b d) k = ix2 b k := by coords
  have er : idx_main_v4 (ridx_main_v5 (ix2 b d) k) = ix2 d k := by coords
  rw [el, er]

theorem head_k (x0 : ERows) (x6 : EWts) (b : Fin 2048) (d : Fin 256) :
    val_main_v7 (F := Ideal) x0 x6 (ix2 b d) = proj x0 x6 b d := by
  rw [val_main_v7_apply]; unfold QuatScore.proj
  refine Finset.sum_congr rfl fun k _ => ?_
  rw [val_main_v6_apply]
  have el : lidx_main_v7 (ix2 b d) k = ix2 b k := by coords
  have er : idx_main_v6 (ridx_main_v7 (ix2 b d) k) = ix2 d k := by coords
  rw [el, er]

theorem tail_r (x1 : ERows) (x3 : EWts) (b : Fin 2048) (d : Fin 256) :
    val_main_v9 (F := Ideal) x1 x3 (ix2 b d) = proj x1 x3 b d := by
  rw [val_main_v9_apply]; unfold QuatScore.proj
  refine Finset.sum_congr rfl fun k _ => ?_
  rw [val_main_v8_apply]
  have el : lidx_main_v9 (ix2 b d) k = ix2 b k := by coords
  have er : idx_main_v8 (ridx_main_v9 (ix2 b d) k) = ix2 d k := by coords
  rw [el, er]

theorem tail_i (x1 : ERows) (x4 : EWts) (b : Fin 2048) (d : Fin 256) :
    val_main_v11 (F := Ideal) x1 x4 (ix2 b d) = proj x1 x4 b d := by
  rw [val_main_v11_apply]; unfold QuatScore.proj
  refine Finset.sum_congr rfl fun k _ => ?_
  rw [val_main_v10_apply]
  have el : lidx_main_v11 (ix2 b d) k = ix2 b k := by coords
  have er : idx_main_v10 (ridx_main_v11 (ix2 b d) k) = ix2 d k := by coords
  rw [el, er]

theorem tail_j (x1 : ERows) (x5 : EWts) (b : Fin 2048) (d : Fin 256) :
    val_main_v13 (F := Ideal) x1 x5 (ix2 b d) = proj x1 x5 b d := by
  rw [val_main_v13_apply]; unfold QuatScore.proj
  refine Finset.sum_congr rfl fun k _ => ?_
  rw [val_main_v12_apply]
  have el : lidx_main_v13 (ix2 b d) k = ix2 b k := by coords
  have er : idx_main_v12 (ridx_main_v13 (ix2 b d) k) = ix2 d k := by coords
  rw [el, er]

theorem tail_k (x1 : ERows) (x6 : EWts) (b : Fin 2048) (d : Fin 256) :
    val_main_v15 (F := Ideal) x1 x6 (ix2 b d) = proj x1 x6 b d := by
  rw [val_main_v15_apply]; unfold QuatScore.proj
  refine Finset.sum_congr rfl fun k _ => ?_
  rw [val_main_v14_apply]
  have el : lidx_main_v15 (ix2 b d) k = ix2 b k := by coords
  have er : idx_main_v14 (ridx_main_v15 (ix2 b d) k) = ix2 d k := by coords
  rw [el, er]

theorem rel_r (x2 : RRows) (x7 : RWts) (b : Fin 2048) (d : Fin 256) :
    val_main_v17 (F := Ideal) x2 x7 (ix2 b d) = proj x2 x7 b d := by
  rw [val_main_v17_apply]; unfold QuatScore.proj
  refine Finset.sum_congr rfl fun k _ => ?_
  rw [val_main_v16_apply]
  have el : lidx_main_v17 (ix2 b d) k = ix2 b k := by coords
  have er : idx_main_v16 (ridx_main_v17 (ix2 b d) k) = ix2 d k := by coords
  rw [el, er]

theorem rel_i (x2 : RRows) (x8 : RWts) (b : Fin 2048) (d : Fin 256) :
    val_main_v19 (F := Ideal) x2 x8 (ix2 b d) = proj x2 x8 b d := by
  rw [val_main_v19_apply]; unfold QuatScore.proj
  refine Finset.sum_congr rfl fun k _ => ?_
  rw [val_main_v18_apply]
  have el : lidx_main_v19 (ix2 b d) k = ix2 b k := by coords
  have er : idx_main_v18 (ridx_main_v19 (ix2 b d) k) = ix2 d k := by coords
  rw [el, er]

theorem rel_j (x2 : RRows) (x9 : RWts) (b : Fin 2048) (d : Fin 256) :
    val_main_v21 (F := Ideal) x2 x9 (ix2 b d) = proj x2 x9 b d := by
  rw [val_main_v21_apply]; unfold QuatScore.proj
  refine Finset.sum_congr rfl fun k _ => ?_
  rw [val_main_v20_apply]
  have el : lidx_main_v21 (ix2 b d) k = ix2 b k := by coords
  have er : idx_main_v20 (ridx_main_v21 (ix2 b d) k) = ix2 d k := by coords
  rw [el, er]

theorem rel_k (x2 : RRows) (x10 : RWts) (b : Fin 2048) (d : Fin 256) :
    val_main_v23 (F := Ideal) x2 x10 (ix2 b d) = proj x2 x10 b d := by
  rw [val_main_v23_apply]; unfold QuatScore.proj
  refine Finset.sum_congr rfl fun k _ => ?_
  rw [val_main_v22_apply]
  have el : lidx_main_v23 (ix2 b d) k = ix2 b k := by coords
  have er : idx_main_v22 (ridx_main_v23 (ix2 b d) k) = ix2 d k := by coords
  rw [el, er]

/-! ## The relation quaternion's scale -/

/-- The squared size of the relation quaternion at feature d of row b, summed in the program's order. -/
theorem sq_at (x2 : RRows) (x7 x8 x9 x10 : RWts) (b : Fin 2048) (d : Fin 256) :
    val_main_v30 (F := Ideal) x2 x7 x8 x9 x10 (ix2 b d)
      = sq4 (proj x2 x7 b d) (proj x2 x8 b d) (proj x2 x9 b d) (proj x2 x10 b d) := by
  rw [val_main_v30_apply, val_main_v28_apply, val_main_v26_apply, val_main_v24_apply, val_main_v25_apply,
    val_main_v27_apply, val_main_v29_apply, rel_r, rel_i, rel_j, rel_k]
  rfl

/-- The float word of 0.0, the row sums' initial value, is the number zero. -/
theorem init_norm (j : S_.Idx) : (val_main_cst (F := Ideal)) j = 0 := by
  unfold val_main_cst; rw [constant_apply]; exact Ideal.ofBits_zero_f32

theorem init_score (j : S_.Idx) : (val_main_cst_0 (F := Ideal)) j = 0 := by
  unfold val_main_cst_0; rw [constant_apply]; exact Ideal.ofBits_zero_f32

/-- The keepdims column of the square root of the row sum is the scale of row b. -/
theorem scale_at (x2 : RRows) (x7 x8 x9 x10 : RWts) (b : Fin 2048) :
    val_main_v33 (F := Ideal) x2 x7 x8 x9 x10 (ix2 b (0 : Fin 1)) = scale x2 x7 x8 x9 x10 b := by
  rw [val_main_v33_apply, val_main_v32_apply, val_main_v31_apply, init_norm, zero_add, Ideal.hostUnary_sqrt_def]
  unfold QuatScore.scale
  congr 1
  refine Finset.sum_congr rfl fun d _ => ?_
  have e : idx_main_v31 (idx_main_v32 (ix2 b (0 : Fin 1))) d = ix2 b d := by coords
  rw [e, sq_at]

/-! ## The scaled relation quaternion: the column broadcast along the features, times each part -/

theorem scaled_r (x2 : RRows) (x7 x8 x9 x10 : RWts) (b : Fin 2048) (d : Fin 256) :
    val_main_v35 (F := Ideal) x2 x7 x8 x9 x10 (ix2 b d) = scale x2 x7 x8 x9 x10 b * proj x2 x7 b d := by
  have e : idx_main_v34 (ix2 b d) = ix2 b (0 : Fin 1) := by coords
  rw [val_main_v35_apply, val_main_v34_apply, e, scale_at, rel_r]; rfl

theorem scaled_i (x2 : RRows) (x7 x8 x9 x10 : RWts) (b : Fin 2048) (d : Fin 256) :
    val_main_v37 (F := Ideal) x2 x7 x8 x9 x10 (ix2 b d) = scale x2 x7 x8 x9 x10 b * proj x2 x8 b d := by
  have e : idx_main_v36 (ix2 b d) = ix2 b (0 : Fin 1) := by coords
  rw [val_main_v37_apply, val_main_v36_apply, e, scale_at, rel_i]; rfl

theorem scaled_j (x2 : RRows) (x7 x8 x9 x10 : RWts) (b : Fin 2048) (d : Fin 256) :
    val_main_v39 (F := Ideal) x2 x7 x8 x9 x10 (ix2 b d) = scale x2 x7 x8 x9 x10 b * proj x2 x9 b d := by
  have e : idx_main_v38 (ix2 b d) = ix2 b (0 : Fin 1) := by coords
  rw [val_main_v39_apply, val_main_v38_apply, e, scale_at, rel_j]; rfl

theorem scaled_k (x2 : RRows) (x7 x8 x9 x10 : RWts) (b : Fin 2048) (d : Fin 256) :
    val_main_v41 (F := Ideal) x2 x7 x8 x9 x10 (ix2 b d) = scale x2 x7 x8 x9 x10 b * proj x2 x10 b d := by
  have e : idx_main_v40 (ix2 b d) = ix2 b (0 : Fin 1) := by coords
  rw [val_main_v41_apply, val_main_v40_apply, e, scale_at, rel_k]; rfl

/-! ## The Hamilton product, part by part, and its dot with the tail -/

/-- The real part of H ⊗ R. -/
theorem ham_r (x0 : ERows) (x2 : RRows) (x3 x4 x5 x6 : EWts) (x7 x8 x9 x10 : RWts) (b : Fin 2048) (d : Fin 256) :
    val_main_v48 (F := Ideal) x0 x2 x3 x4 x5 x6 x7 x8 x9 x10 (ix2 b d)
      = proj x0 x3 b d * (scale x2 x7 x8 x9 x10 b * proj x2 x7 b d)
        - proj x0 x4 b d * (scale x2 x7 x8 x9 x10 b * proj x2 x8 b d)
        - proj x0 x5 b d * (scale x2 x7 x8 x9 x10 b * proj x2 x9 b d)
        - proj x0 x6 b d * (scale x2 x7 x8 x9 x10 b * proj x2 x10 b d) := by
  rw [val_main_v48_apply, val_main_v46_apply, val_main_v44_apply, val_main_v42_apply, val_main_v43_apply,
    val_main_v45_apply, val_main_v47_apply, head_r, head_i, head_j, head_k, scaled_r, scaled_i, scaled_j, scaled_k]
  rfl

/-- The i part of H ⊗ R. -/
theorem ham_i (x0 : ERows) (x2 : RRows) (x3 x4 x5 x6 : EWts) (x7 x8 x9 x10 : RWts) (b : Fin 2048) (d : Fin 256) :
    val_main_v55 (F := Ideal) x0 x2 x3 x4 x5 x6 x7 x8 x9 x10 (ix2 b d)
      = proj x0 x3 b d * (scale x2 x7 x8 x9 x10 b * proj x2 x8 b d)
        + proj x0 x4 b d * (scale x2 x7 x8 x9 x10 b * proj x2 x7 b d)
        + proj x0 x5 b d * (scale x2 x7 x8 x9 x10 b * proj x2 x10 b d)
        - proj x0 x6 b d * (scale x2 x7 x8 x9 x10 b * proj x2 x9 b d) := by
  rw [val_main_v55_apply, val_main_v53_apply, val_main_v51_apply, val_main_v49_apply, val_main_v50_apply,
    val_main_v52_apply, val_main_v54_apply, head_r, head_i, head_j, head_k, scaled_r, scaled_i, scaled_j, scaled_k]
  rfl

/-- The j part of H ⊗ R. -/
theorem ham_j (x0 : ERows) (x2 : RRows) (x3 x4 x5 x6 : EWts) (x7 x8 x9 x10 : RWts) (b : Fin 2048) (d : Fin 256) :
    val_main_v62 (F := Ideal) x0 x2 x3 x4 x5 x6 x7 x8 x9 x10 (ix2 b d)
      = proj x0 x3 b d * (scale x2 x7 x8 x9 x10 b * proj x2 x9 b d)
        - proj x0 x4 b d * (scale x2 x7 x8 x9 x10 b * proj x2 x10 b d)
        + proj x0 x5 b d * (scale x2 x7 x8 x9 x10 b * proj x2 x7 b d)
        + proj x0 x6 b d * (scale x2 x7 x8 x9 x10 b * proj x2 x8 b d) := by
  rw [val_main_v62_apply, val_main_v60_apply, val_main_v58_apply, val_main_v56_apply, val_main_v57_apply,
    val_main_v59_apply, val_main_v61_apply, head_r, head_i, head_j, head_k, scaled_r, scaled_i, scaled_j, scaled_k]
  rfl

/-- The k part of H ⊗ R. -/
theorem ham_k (x0 : ERows) (x2 : RRows) (x3 x4 x5 x6 : EWts) (x7 x8 x9 x10 : RWts) (b : Fin 2048) (d : Fin 256) :
    val_main_v69 (F := Ideal) x0 x2 x3 x4 x5 x6 x7 x8 x9 x10 (ix2 b d)
      = proj x0 x3 b d * (scale x2 x7 x8 x9 x10 b * proj x2 x10 b d)
        + proj x0 x4 b d * (scale x2 x7 x8 x9 x10 b * proj x2 x9 b d)
        - proj x0 x5 b d * (scale x2 x7 x8 x9 x10 b * proj x2 x8 b d)
        + proj x0 x6 b d * (scale x2 x7 x8 x9 x10 b * proj x2 x7 b d) := by
  rw [val_main_v69_apply, val_main_v67_apply, val_main_v65_apply, val_main_v63_apply, val_main_v64_apply,
    val_main_v66_apply, val_main_v68_apply, head_r, head_i, head_j, head_k, scaled_r, scaled_i, scaled_j, scaled_k]
  rfl

/-- One feature's contribution: the four parts of H ⊗ R against the four parts of T, added left to right. -/
theorem term_at (x0 x1 : ERows) (x2 : RRows) (x3 x4 x5 x6 : EWts) (x7 x8 x9 x10 : RWts) (b : Fin 2048) (d : Fin 256) :
    val_main_v76 (F := Ideal) x0 x1 x2 x3 x4 x5 x6 x7 x8 x9 x10 (ix2 b d)
      = term (proj x0 x3 b d) (proj x0 x4 b d) (proj x0 x5 b d) (proj x0 x6 b d)
          (proj x1 x3 b d) (proj x1 x4 b d) (proj x1 x5 b d) (proj x1 x6 b d)
          (scale x2 x7 x8 x9 x10 b * proj x2 x7 b d) (scale x2 x7 x8 x9 x10 b * proj x2 x8 b d)
          (scale x2 x7 x8 x9 x10 b * proj x2 x9 b d) (scale x2 x7 x8 x9 x10 b * proj x2 x10 b d) := by
  rw [val_main_v76_apply, val_main_v74_apply, val_main_v72_apply, val_main_v70_apply, val_main_v71_apply,
    val_main_v73_apply, val_main_v75_apply, ham_r, ham_i, ham_j, ham_k, tail_r, tail_i, tail_j, tail_k]
  rfl

/-! ## The score column and the logistic function -/

/-- The keepdims column of the feature sum is the score of row b. -/
theorem score_at (x0 x1 : ERows) (x2 : RRows) (x3 x4 x5 x6 : EWts) (x7 x8 x9 x10 : RWts) (b : Fin 2048) :
    val_main_v78 (F := Ideal) x0 x1 x2 x3 x4 x5 x6 x7 x8 x9 x10 (ix2 b (0 : Fin 1))
      = score x0 x1 x2 x3 x4 x5 x6 x7 x8 x9 x10 b := by
  rw [val_main_v78_apply, val_main_v77_apply, init_score, zero_add]
  unfold QuatScore.score
  refine Finset.sum_congr rfl fun d _ => ?_
  have e : idx_main_v77 (idx_main_v78 (ix2 b (0 : Fin 1))) d = ix2 b d := by coords
  rw [e, term_at]

/-- The reference program computes the link score: every entry of its result column is the logistic function of its
    row's score. -/
theorem ref_eq (x0 x1 : (⟨S2048x20000, .f32⟩ : BufTy).Contents (Elt Ideal)) (x2 : (⟨S2048x500, .f32⟩ : BufTy).Contents (Elt Ideal))
    (x3 x4 x5 x6 : (⟨S256x20000, .f32⟩ : BufTy).Contents (Elt Ideal)) (x7 x8 x9 x10 : (⟨S256x500, .f32⟩ : BufTy).Contents (Elt Ideal)) :
    val_main_v84 (F := Ideal) x0 x1 x2 x3 x4 x5 x6 x7 x8 x9 x10 = Cert.QuatScore.result x0 x1 x2 x3 x4 x5 x6 x7 x8 x9 x10 := by
  funext i
  obtain ⟨b, z, rfl⟩ : ∃ (b : Fin 2048) (z : Fin 1), i = ix2 b z := ⟨i 0, i 1, eq_ix2 i⟩
  obtain rfl : z = 0 := Subsingleton.elim _ _
  rw [val_main_v84_apply, val_main_v82_apply, val_main_v80_apply, val_main_v79_apply, val_main_v83_apply,
    val_main_v81_apply, score_at]
  unfold val_main_cst_1 val_main_cst_2
  rw [constant_apply, Ideal.hostDivf_def, Ideal.addf_def, Ideal.hostUnary_exp_def, Ideal.hostNegf_def, Ideal.negf_def]
  unfold QuatScore.result
  exact Cert.LibSpelledLogistic.spelled_logistic _

end Cert.RefScore

end
-- ==== Proof.lean ====
/-
  The certificate of a quaternion link-scoring kernel against its jnp reference, on the extended reals.

  Both programs project a head row, a tail row (20000 entities) and a relation row (500 relations) to quaternion-valued
  256-feature rows, scale the relation quaternion by the square root of the row sum of its squared parts, take the
  Hamilton product of head and relation, dot it with the tail feature by feature, sum the features and apply the
  logistic function.  The kernel pads the entity axis with zeros to 20480, walks it in sixteen tiles of 1280 per row
  tile, accumulating the eight head and tail projections in scratch buffers, computes the relation quaternion at the
  first tile, and writes the output column at the last; it applies the logistic function as one operation where the
  reference spells 1 / (1 + e^(-z)).  On the extended reals a change of float format is the identity, a product into a
  zero matrix is the plain row-by-column sum, the sixteen partial sums together with the 0 · 0 products of the padding
  are the whole sum (addition commutes and associates: no entry need be finite), and the spelled quotient is the
  logistic function; every other operation is the same in both programs, in the same order.  Both results are the one
  function Cert.QuatScore.result of the argument arrays.

  The three frames are the programs' runs with their results dropped; the kernel's idealization rewrote no operation.
-/
import proofs.«106782_j49649821942232_1_alg».proof.Defs
import proofs.«106782_j49649821942232_1_alg».proof.Proof.Gen.Kernel
import proofs.«106782_j49649821942232_1_alg».proof.Proof.Gen.Kernel.Skeleton
import proofs.«106782_j49649821942232_1_alg».proof.Proof.Gen.Kernel.Launch
import proofs.«106782_j49649821942232_1_alg».proof.Proof.Gen.Kernel.Points
import proofs.«106782_j49649821942232_1_alg».proof.Proof.PatchedKernelFrame
import proofs.«106782_j49649821942232_1_alg».proof.Proof.Gen.KernelIdeal
import proofs.«106782_j49649821942232_1_alg».proof.Proof.Gen.KernelIdeal.Skeleton
import proofs.«106782_j49649821942232_1_alg».proof.Proof.Gen.KernelIdeal.Launch
import proofs.«106782_j49649821942232_1_alg».proof.Proof.Gen.KernelIdeal.Points
import proofs.«106782_j49649821942232_1_alg».proof.Proof.PatchedKernelIdealFrame
import proofs.«106782_j49649821942232_1_alg».proof.Proof.Gen.ReferenceIdeal
import proofs.«106782_j49649821942232_1_alg».proof.Proof.Gen.Pre_finite_inputs
import proofs.«106782_j49649821942232_1_alg».proof.Proof.PatchedKernelIdealValue
import proofs.«106782_j49649821942232_1_alg».proof.Proof.Gen.ReferenceIdeal.Run
import proofs.«106782_j49649821942232_1_alg».proof.Proof.Gen.ReferenceIdeal.Read
import proofs.«106782_j49649821942232_1_alg».proof.Proof.KernelFinal
import proofs.«106782_j49649821942232_1_alg».proof.Proof.RefScore
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eleven arguments both programs end with the result column at the specification's
    result of those arguments. -/
theorem algebraic : Cert.algebraic_KernelIdeal_ReferenceIdeal := by
  intro m ρ m' ρ' _ hagree
  refine ⟨fun c => Cert.KernelFinal.res m c, Cert.KernelFinal.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v84_eq, Cert.RefScore.ref_eq, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
